-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S16x1024x33 : Shape := ⟨3, ![16, 1024, 33]⟩
abbrev S16x2048x33 : Shape := ⟨3, ![16, 2048, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S4096x33 : Shape := ⟨2, ![4096, 33]⟩
abbrev S2048x128 : Shape := ⟨2, ![2048, 128]⟩
abbrev S2048x33 : Shape := ⟨2, ![2048, 33]⟩
abbrev S33x256 : Shape := ⟨2, ![33, 256]⟩
abbrev S2048x256 : Shape := ⟨2, ![2048, 256]⟩
abbrev S256x32 : Shape := ⟨2, ![256, 32]⟩
abbrev S2048x32 : Shape := ⟨2, ![2048, 32]⟩
abbrev S1024x32 : Shape := ⟨2, ![1024, 32]⟩
abbrev S1024x1 : Shape := ⟨2, ![1024, 1]⟩
abbrev S1024x65 : Shape := ⟨2, ![1024, 65]⟩
abbrev S65x256 : Shape := ⟨2, ![65, 256]⟩
abbrev S1024x256 : Shape := ⟨2, ![1024, 256]⟩
abbrev S256x128 : Shape := ⟨2, ![256, 128]⟩
abbrev S1024x128 : Shape := ⟨2, ![1024, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S16x1024x33, .bf16⟩
  | .hbm, ⟨17, _⟩ => ⟨S16x1024x33, .bf16⟩
  | .hbm, ⟨18, _⟩ => ⟨S16x2048x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S4096x33, .bf16⟩
  | .local _ .vmem, ⟨1, _⟩ => ⟨S4096x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S16x1024x33 : S16384x33.ShapeCasts S16x1024x33
  concatenates_S16x1024x33_S16x1024x33_S16x2048x33_d1 : Shape.Concatenates [S16x1024x33, S16x1024x33] S16x2048x33 1
  shapeCasts_S16x2048x33_S32768x33 : S16x2048x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S4096x33_S2048x33_0_0 : ∀ a, (![0, 0] : Fin 2 → Nat) a + S2048x33.size a ≤ S4096x33.size a
  h_S2048x33 : 0 < S2048x33.numel
  shapeCasts_S2048x33_S2048x33 : S2048x33.ShapeCasts S2048x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x256_0_0 : ∀ a, (![0, 0] : Fin 2 → Nat) a + S33x256.size a ≤ S33x4096.size a
  h_S33x256 : 0 < S33x256.numel
  shapeCasts_S33x256_S33x256 : S33x256.ShapeCasts S33x256
  inb_S4096x32_S256x32_0_0 : ∀ a, (![0, 0] : Fin 2 → Nat) a + S256x32.size a ≤ S4096x32.size a
  h_S256x32 : 0 < S256x32.numel
  shapeCasts_S256x32_S256x32 : S256x32.ShapeCasts S256x32
  broadcasts_S1x32_S2048x32 : S1x32.Broadcasts S2048x32
  inb_S33x4096_S33x256_0_256 : ∀ a, (![0, 256] : Fin 2 → Nat) a + S33x256.size a ≤ S33x4096.size a
  inb_S4096x32_S256x32_256_0 : ∀ a, (![256, 0] : Fin 2 → Nat) a + S256x32.size a ≤ S4096x32.size a
  inb_S33x4096_S33x256_0_512 : ∀ a, (![0, 512] : Fin 2 → Nat) a + S33x256.size a ≤ S33x4096.size a
  inb_S4096x32_S256x32_512_0 : ∀ a, (![512, 0] : Fin 2 → Nat) a + S256x32.size a ≤ S4096x32.size a
  inb_S33x4096_S33x256_0_768 : ∀ a, (![0, 768] : Fin 2 → Nat) a + S33x256.size a ≤ S33x4096.size a
  inb_S4096x32_S256x32_768_0 : ∀ a, (![768, 0] : Fin 2 → Nat) a + S256x32.size a ≤ S4096x32.size a
  inb_S33x4096_S33x256_0_1024 : ∀ a, (![0, 1024] : Fin 2 → Nat) a + S33x256.size a ≤ S33x4096.size a
  inb_S4096x32_S256x32_1024_0 : ∀ a, (![1024, 0] : Fin 2 → Nat) a + S256x32.size a ≤ S4096x32.size a
  inb_S33x4096_S33x256_0_1280 : ∀ a, (![0, 1280] : Fin 2 → Nat) a + S33x256.size a ≤ S33x4096.size a
  inb_S4096x32_S256x32_1280_0 : ∀ a, (![1280, 0] : Fin 2 → Nat) a + S256x32.size a ≤ S4096x32.size a
  inb_S33x4096_S33x256_0_1536 : ∀ a, (![0, 1536] : Fin 2 → Nat) a + S33x256.size a ≤ S33x4096.size a
  inb_S4096x32_S256x32_1536_0 : ∀ a, (![1536, 0] : Fin 2 → Nat) a + S256x32.size a ≤ S4096x32.size a
  inb_S33x4096_S33x256_0_1792 : ∀ a, (![0, 1792] : Fin 2 → Nat) a + S33x256.size a ≤ S33x4096.size a
  inb_S4096x32_S256x32_1792_0 : ∀ a, (![1792, 0] : Fin 2 → Nat) a + S256x32.size a ≤ S4096x32.size a
  inb_S33x4096_S33x256_0_2048 : ∀ a, (![0, 2048] : Fin 2 → Nat) a + S33x256.size a ≤ S33x4096.size a
  inb_S4096x32_S256x32_2048_0 : ∀ a, (![2048, 0] : Fin 2 → Nat) a + S256x32.size a ≤ S4096x32.size a
  inb_S33x4096_S33x256_0_2304 : ∀ a, (![0, 2304] : Fin 2 → Nat) a + S33x256.size a ≤ S33x4096.size a
  inb_S4096x32_S256x32_2304_0 : ∀ a, (![2304, 0] : Fin 2 → Nat) a + S256x32.size a ≤ S4096x32.size a
  inb_S33x4096_S33x256_0_2560 : ∀ a, (![0, 2560] : Fin 2 → Nat) a + S33x256.size a ≤ S33x4096.size a
  inb_S4096x32_S256x32_2560_0 : ∀ a, (![2560, 0] : Fin 2 → Nat) a + S256x32.size a ≤ S4096x32.size a
  inb_S33x4096_S33x256_0_2816 : ∀ a, (![0, 2816] : Fin 2 → Nat) a + S33x256.size a ≤ S33x4096.size a
  inb_S4096x32_S256x32_2816_0 : ∀ a, (![2816, 0] : Fin 2 → Nat) a + S256x32.size a ≤ S4096x32.size a
  inb_S33x4096_S33x256_0_3072 : ∀ a, (![0, 3072] : Fin 2 → Nat) a + S33x256.size a ≤ S33x4096.size a
  inb_S4096x32_S256x32_3072_0 : ∀ a, (![3072, 0] : Fin 2 → Nat) a + S256x32.size a ≤ S4096x32.size a
  inb_S33x4096_S33x256_0_3328 : ∀ a, (![0, 3328] : Fin 2 → Nat) a + S33x256.size a ≤ S33x4096.size a
  inb_S4096x32_S256x32_3328_0 : ∀ a, (![3328, 0] : Fin 2 → Nat) a + S256x32.size a ≤ S4096x32.size a
  inb_S33x4096_S33x256_0_3584 : ∀ a, (![0, 3584] : Fin 2 → Nat) a + S33x256.size a ≤ S33x4096.size a
  inb_S4096x32_S256x32_3584_0 : ∀ a, (![3584, 0] : Fin 2 → Nat) a + S256x32.size a ≤ S4096x32.size a
  inb_S33x4096_S33x256_0_3840 : ∀ a, (![0, 3840] : Fin 2 → Nat) a + S33x256.size a ≤ S33x4096.size a
  inb_S4096x32_S256x32_3840_0 : ∀ a, (![3840, 0] : Fin 2 → Nat) a + S256x32.size a ≤ S4096x32.size a
  slices_S2048x32_o0_0_S1024x32 : S2048x32.Slices ![0, 0] S1024x32
  slices_S2048x32_o1024_0_S1024x32 : S2048x32.Slices ![1024, 0] S1024x32
  concatenates_S1024x32_S1024x32_S1024x1_S1024x65_d1 : Shape.Concatenates [S1024x32, S1024x32, S1024x1] S1024x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x256_0_0 : ∀ a, (![0, 0] : Fin 2 → Nat) a + S65x256.size a ≤ S65x4096.size a
  h_S65x256 : 0 < S65x256.numel
  shapeCasts_S65x256_S65x256 : S65x256.ShapeCasts S65x256
  inb_S4096x128_S256x128_0_0 : ∀ a, (![0, 0] : Fin 2 → Nat) a + S256x128.size a ≤ S4096x128.size a
  h_S256x128 : 0 < S256x128.numel
  shapeCasts_S256x128_S256x128 : S256x128.ShapeCasts S256x128
  broadcasts_S1x128_S1024x128 : S1x128.Broadcasts S1024x128
  inb_S65x4096_S65x256_0_256 : ∀ a, (![0, 256] : Fin 2 → Nat) a + S65x256.size a ≤ S65x4096.size a
  inb_S4096x128_S256x128_256_0 : ∀ a, (![256, 0] : Fin 2 → Nat) a + S256x128.size a ≤ S4096x128.size a
  inb_S65x4096_S65x256_0_512 : ∀ a, (![0, 512] : Fin 2 → Nat) a + S65x256.size a ≤ S65x4096.size a
  inb_S4096x128_S256x128_512_0 : ∀ a, (![512, 0] : Fin 2 → Nat) a + S256x128.size a ≤ S4096x128.size a
  inb_S65x4096_S65x256_0_768 : ∀ a, (![0, 768] : Fin 2 → Nat) a + S65x256.size a ≤ S65x4096.size a
  inb_S4096x128_S256x128_768_0 : ∀ a, (![768, 0] : Fin 2 → Nat) a + S256x128.size a ≤ S4096x128.size a
  inb_S65x4096_S65x256_0_1024 : ∀ a, (![0, 1024] : Fin 2 → Nat) a + S65x256.size a ≤ S65x4096.size a
  inb_S4096x128_S256x128_1024_0 : ∀ a, (![1024, 0] : Fin 2 → Nat) a + S256x128.size a ≤ S4096x128.size a
  inb_S65x4096_S65x256_0_1280 : ∀ a, (![0, 1280] : Fin 2 → Nat) a + S65x256.size a ≤ S65x4096.size a
  inb_S4096x128_S256x128_1280_0 : ∀ a, (![1280, 0] : Fin 2 → Nat) a + S256x128.size a ≤ S4096x128.size a
  inb_S65x4096_S65x256_0_1536 : ∀ a, (![0, 1536] : Fin 2 → Nat) a + S65x256.size a ≤ S65x4096.size a
  inb_S4096x128_S256x128_1536_0 : ∀ a, (![1536, 0] : Fin 2 → Nat) a + S256x128.size a ≤ S4096x128.size a
  inb_S65x4096_S65x256_0_1792 : ∀ a, (![0, 1792] : Fin 2 → Nat) a + S65x256.size a ≤ S65x4096.size a
  inb_S4096x128_S256x128_1792_0 : ∀ a, (![1792, 0] : Fin 2 → Nat) a + S256x128.size a ≤ S4096x128.size a
  inb_S65x4096_S65x256_0_2048 : ∀ a, (![0, 2048] : Fin 2 → Nat) a + S65x256.size a ≤ S65x4096.size a
  inb_S4096x128_S256x128_2048_0 : ∀ a, (![2048, 0] : Fin 2 → Nat) a + S256x128.size a ≤ S4096x128.size a
  inb_S65x4096_S65x256_0_2304 : ∀ a, (![0, 2304] : Fin 2 → Nat) a + S65x256.size a ≤ S65x4096.size a
  inb_S4096x128_S256x128_2304_0 : ∀ a, (![2304, 0] : Fin 2 → Nat) a + S256x128.size a ≤ S4096x128.size a
  inb_S65x4096_S65x256_0_2560 : ∀ a, (![0, 2560] : Fin 2 → Nat) a + S65x256.size a ≤ S65x4096.size a
  inb_S4096x128_S256x128_2560_0 : ∀ a, (![2560, 0] : Fin 2 → Nat) a + S256x128.size a ≤ S4096x128.size a
  inb_S65x4096_S65x256_0_2816 : ∀ a, (![0, 2816] : Fin 2 → Nat) a + S65x256.size a ≤ S65x4096.size a
  inb_S4096x128_S256x128_2816_0 : ∀ a, (![2816, 0] : Fin 2 → Nat) a + S256x128.size a ≤ S4096x128.size a
  inb_S65x4096_S65x256_0_3072 : ∀ a, (![0, 3072] : Fin 2 → Nat) a + S65x256.size a ≤ S65x4096.size a
  inb_S4096x128_S256x128_3072_0 : ∀ a, (![3072, 0] : Fin 2 → Nat) a + S256x128.size a ≤ S4096x128.size a
  inb_S65x4096_S65x256_0_3328 : ∀ a, (![0, 3328] : Fin 2 → Nat) a + S65x256.size a ≤ S65x4096.size a
  inb_S4096x128_S256x128_3328_0 : ∀ a, (![3328, 0] : Fin 2 → Nat) a + S256x128.size a ≤ S4096x128.size a
  inb_S65x4096_S65x256_0_3584 : ∀ a, (![0, 3584] : Fin 2 → Nat) a + S65x256.size a ≤ S65x4096.size a
  inb_S4096x128_S256x128_3584_0 : ∀ a, (![3584, 0] : Fin 2 → Nat) a + S256x128.size a ≤ S4096x128.size a
  inb_S65x4096_S65x256_0_3840 : ∀ a, (![0, 3840] : Fin 2 → Nat) a + S65x256.size a ≤ S65x4096.size a
  inb_S4096x128_S256x128_3840_0 : ∀ a, (![3840, 0] : Fin 2 → Nat) a + S256x128.size a ≤ S4096x128.size a
  inb_S2048x128_S1024x128_0_0 : ∀ a, (![0, 0] : Fin 2 → Nat) a + S1024x128.size a ≤ S2048x128.size a
  h_S1024x128 : 0 < S1024x128.numel
  inb_S4096x33_S2048x33_2048_0 : ∀ a, (![2048, 0] : Fin 2 → Nat) a + S2048x33.size a ≤ S4096x33.size a
  inb_S2048x128_S1024x128_1024_0 : ∀ a, (![1024, 0] : Fin 2 → Nat) a + S1024x128.size a ≤ S2048x128.size a
  dot_S2048x33_S33x256_S2048x256_1_0_0_1_n_n_wf : DotDims.WF S2048x33 S33x256 S2048x256 [1] [0] [0] [1] [] []
  dot_S2048x256_S256x32_S2048x32_1_0_0_1_n_n_wf : DotDims.WF S2048x256 S256x32 S2048x32 [1] [0] [0] [1] [] []
  dot_S1024x65_S65x256_S1024x256_1_0_0_1_n_n_wf : DotDims.WF S1024x65 S65x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x33.size a ≤ S32768x33.size a
  hwx0_0 : ∀ i : grid0.Coords, EltTy.bits .bf16 = 32 ∨ (Rect.block (s := S32768x33) S4096x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S2048x33_S33x256_S2048x256_1_0_0_1_n_n : DotDims S2048x33 S33x256 S2048x256 where
  lhsContracting := [1]
  rhsContracting := [0]
  lhsNonContracting := [0]
  rhsNonContracting := [1]
  lhsBatch := []
  rhsBatch := []
  wf := dot_S2048x33_S33x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S1024x65_S65x256_S1024x256_1_0_0_1_n_n : DotDims S1024x65 S65x256 S1024x256 where
  lhsContracting := [1]
  rhsContracting := [0]
  lhsNonContracting := [0]
  rhsNonContracting := [1]
  lhsBatch := []
  rhsBatch := []
  wf := dot_S1024x65_S65x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v8) S4096x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.KernelTerm.lean ====
/-
  The kernel body's arithmetic, laid out by its mathematics.

  One grid step handles 2048 batch rows as two independent streams of 1024. A stream receives a block `x` of
  2048 rows and 33 columns: rows 0–1023 are rows of `state`, rows 1024–2047 the same rows of `next_state`, and column 32
  is the constant one, so that a product with the matrix `W1` extended by the row `b1` adds the bias. The 4096 hidden
  units are taken 256 at a time: for each run of 256 the stream multiplies `x` by the run's columns of the extended
  `W1`, rectifies, multiplies by the run's rows of `W2` and adds the result to an accumulator that starts at `b2`
  (`accA`). The rectified accumulator is cut into its two halves, which are laid side by side with a column of ones
  (`pairU`, 1024 rows and 65 columns), and the same scheme runs over the extended `W3` and over `W4` from `b4` (`accB`).

  These definitions are generic in the float instance; `out0_7_eq` says that the two payloads the body stores are
  exactly this term at the two streams' row blocks, by unfolding.
-/
import proofs.«146832_g11802570129985_cont_fleet_79_18_alg».proof.Proof.Gen.KernelIdeal.Frame

set_option maxRecDepth 16384

noncomputable section

namespace Cert.KernelTerm

open Idealize.ShloMosaic Cert.KernelIdeal
open Cert.KernelIdeal.Facts₀ Cert.KernelIdeal.Facts

variable {F : FTy → Type} [FloatOps F]

/-- First layer on one run of 256 hidden units: product with the run's columns of the extended `W1`, rectified. -/
def hidA (x : FVec F S2048x33 .bf16) (w : Vec F S33x256 .bf16) : FVec F S2048x256 .bf16 :=
  maximumf (truncf .bf16 (matmul dot_S2048x33_S33x256_S2048x256_1_0_0_1_n_n none x (shapeCast S33x256 w shapeCasts_S33x256_S33x256)
    (constant S2048x256 .f32 0x00000000#32)) bitsLt_bf16_f32) (broadcast S2048x256 (Scalar.ofBits .bf16 0x0000#16))

/-- The run's contribution to the second layer: the rectified hidden block times the run's rows of `W2`. -/
def chunkA (x : FVec F S2048x33 .bf16) (w : Vec F S33x256 .bf16) (w' : Vec F S256x32 .bf16) : FVec F S2048x32 .f32 :=
  matmul dot_S2048x256_S256x32_S2048x32_1_0_0_1_n_n none (hidA x w) (shapeCast S256x32 w' shapeCasts_S256x32_S256x32)
    (constant S2048x32 .f32 0x00000000#32)

/-- The second layer before its rectifier: the bias row, then the runs' contributions added one after the other. -/
def accA (x : FVec F S2048x33 .bf16) (b : Vec F S1x32 .f32) (ws : List (Vec F S33x256 .bf16 × Vec F S256x32 .bf16)) :
    FVec F S2048x32 .f32 :=
  ws.foldl (fun a (p : Vec F S33x256 .bf16 × Vec F S256x32 .bf16) => addf a (chunkA x p.1 p.2))
    (broadcastTo S2048x32 (shapeCast S1x32 b shapeCasts_S1x32_S1x32) broadcasts_S1x32_S2048x32)

/-- The rectified output of both branches re-paired: rows r and 1024 + r side by side, then a column of ones. -/
def pairU (acc : FVec F S2048x32 .f32) : FVec F S1024x65 .bf16 :=
  truncf .bf16 (concatenate S1024x65 1
    [⟨S1024x32, extractStridedSlice S1024x32 ![0, 0] (maximumf acc (broadcast S2048x32 (Scalar.ofBits .f32 0x00000000#32))) slices_S2048x32_o0_0_S1024x32⟩,
     ⟨S1024x32, extractStridedSlice S1024x32 ![1024, 0] (maximumf acc (broadcast S2048x32 (Scalar.ofBits .f32 0x00000000#32))) slices_S2048x32_o1024_0_S1024x32⟩,
     ⟨S1024x1, broadcast S1024x1 (Scalar.ofBits .f32 0x3F800000#32)⟩]
    concatenates_S1024x32_S1024x32_S1024x1_S1024x65_d1) bitsLt_bf16_f32

/-- Third layer on one run of 256 hidden units. -/
def hidB (u : FVec F S1024x65 .bf16) (w : Vec F S65x256 .bf16) : FVec F S1024x256 .bf16 :=
  maximumf (truncf .bf16 (matmul dot_S1024x65_S65x256_S1024x256_1_0_0_1_n_n none u (shapeCast S65x256 w shapeCasts_S65x256_S65x256)
    (constant S1024x256 .f32 0x00000000#32)) bitsLt_bf16_f32) (broadcast S1024x256 (Scalar.ofBits .bf16 0x0000#16))

/-- The run's contribution to the fourth layer. -/
def chunkB (u : FVec F S1024x65 .bf16) (w : Vec F S65x256 .bf16) (w' : Vec F S256x128 .bf16) : FVec F S1024x128 .f32 :=
  matmul dot_S1024x256_S256x128_S1024x128_1_0_0_1_n_n none (hidB u w) (shapeCast S256x128 w' shapeCasts_S256x128_S256x128)
    (constant S1024x128 .f32 0x00000000#32)

/-- The fourth layer: the bias row, then the runs' contributions. -/
def accB (u : FVec F S1024x65 .bf16) (b : Vec F S1x128 .f32) (ws : List (Vec F S65x256 .bf16 × Vec F S256x128 .bf16)) :
    FVec F S1024x128 .f32 :=
  ws.foldl (fun a (p : Vec F S65x256 .bf16 × Vec F S256x128 .bf16) => addf a (chunkB u p.1 p.2))
    (broadcastTo S1024x128 (shapeCast S1x128 b shapeCasts_S1x128_S1x128) broadcasts_S1x128_S1024x128)

/-- One stream: 2048 stacked input rows to 1024 output rows. -/
def stream (x : Vec F S2048x33 .bf16) (b2 : Vec F S1x32 .f32) (wsA : List (Vec F S33x256 .bf16 × Vec F S256x32 .bf16))
    (b4 : Vec F S1x128 .f32) (wsB : List (Vec F S65x256 .bf16 × Vec F S256x128 .bf16)) : FVec F S1024x128 .f32 :=
  accB (pairU (accA (shapeCast S2048x33 x shapeCasts_S2048x33_S2048x33) b2 wsA)) b4 wsB

/-- The sixteen runs of the first two layers' weights as the body loads them: columns 256 c … of the extended `W1`,
    rows 256 c … of `W2`. -/
def loadsA (x1 : Vec F S33x4096 .bf16) (x2 : Vec F S4096x32 .bf16) : List (Vec F S33x256 .bf16 × Vec F S256x32 .bf16) :=
  [(View.ld x1 Gen.r0_2, View.ld x2 Gen.r0_3), (View.ld x1 Gen.r0_4, View.ld x2 Gen.r0_5), (View.ld x1 Gen.r0_6, View.ld x2 Gen.r0_7), (View.ld x1 Gen.r0_8, View.ld x2 Gen.r0_9), (View.ld x1 Gen.r0_10, View.ld x2 Gen.r0_11), (View.ld x1 Gen.r0_12, View.ld x2 Gen.r0_13), (View.ld x1 Gen.r0_14, View.ld x2 Gen.r0_15), (View.ld x1 Gen.r0_16, View.ld x2 Gen.r0_17), (View.ld x1 Gen.r0_18, View.ld x2 Gen.r0_19), (View.ld x1 Gen.r0_20, View.ld x2 Gen.r0_21), (View.ld x1 Gen.r0_22, View.ld x2 Gen.r0_23), (View.ld x1 Gen.r0_24, View.ld x2 Gen.r0_25), (View.ld x1 Gen.r0_26, View.ld x2 Gen.r0_27), (View.ld x1 Gen.r0_28, View.ld x2 Gen.r0_29), (View.ld x1 Gen.r0_30, View.ld x2 Gen.r0_31), (View.ld x1 Gen.r0_32, View.ld x2 Gen.r0_33)]

/-- The sixteen runs of the last two layers' weights. -/
def loadsB (x4 : Vec F S65x4096 .bf16) (x5 : Vec F S4096x128 .bf16) : List (Vec F S65x256 .bf16 × Vec F S256x128 .bf16) :=
  [(View.ld x4 Gen.r0_35, View.ld x5 Gen.r0_36), (View.ld x4 Gen.r0_37, View.ld x5 Gen.r0_38), (View.ld x4 Gen.r0_39, View.ld x5 Gen.r0_40), (View.ld x4 Gen.r0_41, View.ld x5 Gen.r0_42), (View.ld x4 Gen.r0_43, View.ld x5 Gen.r0_44), (View.ld x4 Gen.r0_45, View.ld x5 Gen.r0_46), (View.ld x4 Gen.r0_47, View.ld x5 Gen.r0_48), (View.ld x4 Gen.r0_49, View.ld x5 Gen.r0_50), (View.ld x4 Gen.r0_51, View.ld x5 Gen.r0_52), (View.ld x4 Gen.r0_53, View.ld x5 Gen.r0_54), (View.ld x4 Gen.r0_55, View.ld x5 Gen.r0_56), (View.ld x4 Gen.r0_57, View.ld x5 Gen.r0_58), (View.ld x4 Gen.r0_59, View.ld x5 Gen.r0_60), (View.ld x4 Gen.r0_61, View.ld x5 Gen.r0_62), (View.ld x4 Gen.r0_63, View.ld x5 Gen.r0_64), (View.ld x4 Gen.r0_65, View.ld x5 Gen.r0_66)]

set_option maxHeartbeats 4000000 in
/-- What the body leaves in the output block: stream one's result in rows 1024–2047, stream zero's in rows 0–1023. -/
theorem out0_7_eq (x0 : Vec F S4096x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) :
    Gen.out0_7 x0 x1 x2 x3 x4 x5 x6 = View.canon
      [⟨Gen.r0_69, stream (View.ld x0 Gen.r0_68) (View.ld x3 Gen.r0_1) (loadsA x1 x2) (View.ld x6 Gen.r0_34) (loadsB x4 x5)⟩,
       ⟨Gen.r0_67, stream (View.ld x0 Gen.r0_0) (View.ld x3 Gen.r0_1) (loadsA x1 x2) (View.ld x6 Gen.r0_34) (loadsB x4 x5)⟩] := rfl

end Cert.KernelTerm

end
-- ==== Proof.Spec.lean ====
/-
  The function both programs compute, over the extended reals.

  A Siamese network: one two-layer perceptron `x ↦ relu (relu (x · W1 + b1) · W2 + b2)` (32 → 4096 → 32) applied to the
  rows of `state` and of `next_state`; the two 32-vectors of a row laid side by side (64 entries) go through a second
  perceptron `o ↦ relu (o · W3 + b3) · W4 + b4` (64 → 4096 → 128). Entry (r, n) of the result depends on row r of the
  two inputs only.

  Also here, over abstract finite index types, the two re-arrangements of sums by which the kernel's way of computing
  a layer meets the textbook one:
  * a bias folded into the product by a column of ones (`sum_aug`): ∑_{k < d+1} X k · W' k = ∑_{k < d} x k · w k + b when
    X extends x by the entry 1 and W' extends w by the entry b;
  * a sum over 4096 hidden units taken 256 at a time (`sum_chunks`): ∑_{c < 16} ∑_{j < 256} f (256 c + j) = ∑_m f m.
  Both hold on the extended reals with no finiteness assumption: only commutativity and associativity of the sum and
  1 · b = b are used.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- A matrix of extended reals with `a` rows and `b` columns. -/
abbrev Mat (a b : Nat) : Type := (⟨2, ![a, b]⟩ : Shape).Idx → EReal
/-- A vector of extended reals with `a` entries. -/
abbrev Arr (a : Nat) : Type := (⟨1, ![a]⟩ : Shape).Idx → EReal

/-- The rectifier. -/
def relu (x : EReal) : EReal := max x 0

/-- Hidden unit `m` of a dense layer with rectifier on the input vector `x`. -/
def hid {d : Nat} (x : Fin d → EReal) (W : Mat d 4096) (b : Arr 4096) (m : Fin 4096) : EReal :=
  relu ((∑ k : Fin d, x k * W (ix2 k m)) + b (ix1 m))

/-- Output `n` of a perceptron with 4096 hidden units: dense layer, rectifier, dense layer. -/
def mlp {d e : Nat} (x : Fin d → EReal) (W : Mat d 4096) (b : Arr 4096) (W' : Mat 4096 e) (b' : Arr e) (n : Fin e) : EReal :=
  (∑ m : Fin 4096, hid x W b m * W' (ix2 m n)) + b' (ix1 n)

/-- One branch of the Siamese pair: the first perceptron followed by a rectifier. -/
def branch (x : Fin 32 → EReal) (W1 : Mat 32 4096) (b1 : Arr 4096) (W2 : Mat 4096 32) (b2 : Arr 32) (n : Fin 32) : EReal :=
  relu (mlp x W1 b1 W2 b2 n)

/-- Two 32-vectors side by side. -/
def pair (p q : Fin 32 → EReal) : Fin 64 → EReal :=
  fun k => if h : k.val < 32 then p ⟨k.val, h⟩ else q ⟨k.val - 32, by have := k.isLt; omega⟩

/-- Row `r` of a matrix as a vector. -/
def row {a b : Nat} (X : Mat a b) (r : Fin a) : Fin b → EReal := fun k => X (ix2 r k)

/-- The network's output, entry by entry. -/
def G (s ns : Mat 16384 32) (W1 : Mat 32 4096) (b1 : Arr 4096) (W2 : Mat 4096 32) (b2 : Arr 32)
    (W3 : Mat 64 4096) (b3 : Arr 4096) (W4 : Mat 4096 128) (b4 : Arr 128) : Mat 16384 128 :=
  fun i => mlp (pair (branch (row s (i 0)) W1 b1 W2 b2) (branch (row ns (i 0)) W1 b1 W2 b2)) W3 b3 W4 b4 (i 1)

/-! ## Two re-arrangements of a sum -/

/-- A bias folded into a product by an entry of one. -/
theorem sum_aug {d : Nat} (X W' : Fin (d + 1) → EReal) (x w : Fin d → EReal) (b : EReal)
    (hx : ∀ k : Fin d, X k.castSucc = x k) (h1 : X (Fin.last d) = 1)
    (hw : ∀ k : Fin d, W' k.castSucc = w k) (hb : W' (Fin.last d) = b) :
    ∑ k, X k * W' k = (∑ k, x k * w k) + b := by
  rw [Fin.sum_univ_castSucc, h1, hb, one_mul]
  congr 1
  exact Finset.sum_congr rfl fun k _ => by rw [hx, hw]

/-- A sum over 4096 taken in 16 runs of 256. -/
theorem sum_chunks (f : Fin 4096 → EReal) :
    ∑ c : Fin 16, ∑ j : Fin 256, f ⟨256 * c.val + j.val, by have := c.isLt; have := j.isLt; omega⟩ = ∑ m, f m := by
  rw [← Fintype.sum_prod_type', ← Equiv.sum_comp (finProdFinEquiv (m := 16) (n := 256)) f]
  refine Finset.sum_congr rfl fun p _ => congrArg f (Fin.ext ?_)
  show 256 * p.1.val + p.2.val = p.2.val + 256 * p.1.val
  omega

end Cert.Spec

end
-- ==== Proof.KernelValue.lean ====
/-
  The kernel's streams read entry by entry over the extended reals.

  A product into a zero accumulator is, at entry (a, b), the row-by-column sum; a format change is the identity and
  the rectifier is the maximum with zero. So one run of 256 hidden units contributes
  ∑_{j < 256} relu (∑_k x[r, k] · W[k, 256 c + j]) · W'[256 c + j, n]; the sixteen runs, added one after the other to
  the bias row, give the bias plus the sum over all 4096 hidden units (`Spec.sum_chunks`), and a constant-one column
  against a weight matrix extended by the bias row adds the first layer's bias (`Spec.sum_aug`). Read this way each
  layer pair of a stream is `Spec.mlp`, and a stream's output row is the network's output for one batch row.
-/
import proofs.«146832_g11802570129985_cont_fleet_79_18_alg».proof.Proof.KernelTerm
import proofs.«146832_g11802570129985_cont_fleet_79_18_alg».proof.Proof.Spec
import Idealize.ShloMosaic.Lib.ValueIdx
import Idealize.ShloMosaic.Lib.Pipeline.Value
import Idealize.ShloMosaic.Lib.StackMember
import Idealize.ShloMosaic.PureOps.Ideal.Laws
import Idealize.ShloMosaic.PureOps.IdealRules

set_option maxRecDepth 16384

noncomputable section

namespace Cert.KernelValue

open Idealize.ShloMosaic Idealize.ShloMosaic.ValueIdx Cert.KernelIdeal Cert.KernelTerm Cert.Spec
open Cert.KernelIdeal.Facts₀ Cert.KernelIdeal.Facts

/-! ## Products, folds and loads at an entry -/

/-- A plain matrix product into the zero accumulator, at entry (a, b): row a times column b. -/
theorem matmul_zero_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  show FloatOps.matmul (DotDims.plain m k n) none A B (constant _ .f32 0x00000000#32) (ix2 a b) = _
  rw [Ideal.matmul_constant_zero_apply, ← Ideal.dotGeneral_apply (DotDims.plain m k n) none .single A B (ix2 a b)]
  exact StackMember.dotGeneral_plain_apply none A B a b

/-- Contributions added one after the other to a start value: at each entry the start value plus their sum. -/
theorem foldl_addf_apply {α : Type} {s : Shape} {φ : FTy} (g : α → FVec Ideal s φ) (l : List α) (init : FVec Ideal s φ)
    (i : s.Idx) : (l.foldl (fun a p => addf a (g p)) init) i = init i + (l.map fun p => g p i).sum := by
  induction l generalizing init with
  | nil => simp
  | cons p l ih => rw [List.foldl_cons, ih, addf_apply, List.map_cons, List.sum_cons, add_assoc]

/-- The bf16 zero word is zero. -/
theorem zero_bf16 : (Scalar.ofBits (F := Ideal) .bf16 0x0000#16 : EReal) = 0 := IdealRules.sign_bit.ideal_zero .bf16
/-- The f32 zero word is zero. -/
theorem zero_f32 : (Scalar.ofBits (F := Ideal) .f32 0x00000000#32 : EReal) = 0 := Ideal.ofBits_zero_f32
/-- The f32 word of 1.0 is one. -/
theorem one_f32 : (Scalar.ofBits (F := Ideal) .f32 0x3F800000#32 : EReal) = 1 := IdealRules.sign_bit.ideal_onePat .f32

/-! ## Layers one and two -/

theorem hidA_apply (x : FVec Ideal S2048x33 .bf16) (w : Vec Ideal S33x256 .bf16) (r : Fin 2048) (j : Fin 256) :
    hidA x w (ix2 r j) = relu (∑ k : Fin 33, x (ix2 r k) * w (ix2 k j)) := by
  unfold hidA relu
  rw [maximumf_apply, truncf_apply, broadcast_apply, shapeCast_self,
    matmul_zero_apply dot_S2048x33_S33x256_S2048x256_1_0_0_1_n_n rfl x w r j]
  exact congrArg (max _) zero_bf16

theorem chunkA_apply (x : FVec Ideal S2048x33 .bf16) (w : Vec Ideal S33x256 .bf16) (w' : Vec Ideal S256x32 .bf16)
    (r : Fin 2048) (n : Fin 32) :
    chunkA x w w' (ix2 r n) = ∑ j : Fin 256, relu (∑ k : Fin 33, x (ix2 r k) * w (ix2 k j)) * w' (ix2 j n) := by
  unfold chunkA
  rw [shapeCast_self, matmul_zero_apply dot_S2048x256_S256x32_S2048x32_1_0_0_1_n_n rfl (hidA x w) w' r n]
  exact Finset.sum_congr rfl fun j _ => by rw [hidA_apply]

theorem accA_apply (x : FVec Ideal S2048x33 .bf16) (b : Vec Ideal S1x32 .f32)
    (ws : List (Vec Ideal S33x256 .bf16 × Vec Ideal S256x32 .bf16)) (r : Fin 2048) (n : Fin 32) :
    accA x b ws (ix2 r n) = b (ix2 (0 : Fin 1) n) + (ws.map fun p => chunkA x p.1 p.2 (ix2 r n)).sum := by
  unfold accA
  rw [foldl_addf_apply (fun p : Vec Ideal S33x256 .bf16 × Vec Ideal S256x32 .bf16 => chunkA x p.1 p.2), shapeCast_self]
  congr 1
  exact broadcastTo_apply b broadcasts_S1x32_S2048x32 (ix2 r n) (ix2 (0 : Fin 1) n) (fun a => match a with
    | ⟨0, _⟩ => by show 0 = if (1 : Nat) = 1 then 0 else _; rw [if_pos rfl]
    | ⟨1, _⟩ => by show n.val = if (32 : Nat) = 1 then 0 else n.val; rw [if_neg (by decide)])

/-- The run `c` of the extended `W1`: its columns 256 c … 256 c + 255. -/
abbrev rectA (c : Fin 16) : Rect S33x4096 :=
  Rect.unit ![0, 256 * c.val] S33x256.size (Rect.inb₂ (d := ![33, 4096]) (off := ![0, 256 * c.val]) (size := ![33, 256])
    (Nat.le_refl 33) (by show 256 * c.val + 256 ≤ 4096; have := c.isLt; omega))

/-- The run `c` of `W2`: its rows 256 c … 256 c + 255. -/
abbrev rectA' (c : Fin 16) : Rect S4096x32 :=
  Rect.unit ![256 * c.val, 0] S256x32.size (Rect.inb₂ (d := ![4096, 32]) (off := ![256 * c.val, 0]) (size := ![256, 32])
    (by show 256 * c.val + 256 ≤ 4096; have := c.isLt; omega) (Nat.le_refl 32))

/-- The body's sixteen loads are the sixteen runs in order. -/
theorem loadsA_eq (x1 : Vec Ideal S33x4096 .bf16) (x2 : Vec Ideal S4096x32 .bf16) :
    loadsA x1 x2 = List.ofFn fun c : Fin 16 => (View.ld x1 (rectA c), View.ld x2 (rectA' c)) := rfl

theorem ld_rectA (x1 : Vec Ideal S33x4096 .bf16) (c : Fin 16) (k : Fin 33) (j : Fin 256) :
    View.ld x1 (rectA c) (ix2 k j) = x1 (ix2 k ⟨256 * c.val + j.val, by have := c.isLt; have := j.isLt; omega⟩) := by
  show x1 ((rectA c).idx (ix2 k j)) = _
  refine congrArg x1 (Shape.idx_ext₂ ?_ ?_)
  · show 0 + 1 * k.val = k.val; omega
  · show 256 * c.val + 1 * j.val = 256 * c.val + j.val; omega

theorem ld_rectA' (x2 : Vec Ideal S4096x32 .bf16) (c : Fin 16) (j : Fin 256) (n : Fin 32) :
    View.ld x2 (rectA' c) (ix2 j n) = x2 (ix2 ⟨256 * c.val + j.val, by have := c.isLt; have := j.isLt; omega⟩ n) := by
  show x2 ((rectA' c).idx (ix2 j n)) = _
  refine congrArg x2 (Shape.idx_ext₂ ?_ ?_)
  · show 256 * c.val + 1 * j.val = 256 * c.val + j.val; omega
  · show 0 + 1 * n.val = n.val; omega

/-- The second layer before its rectifier, over the whole weight matrices: bias plus the sum over all hidden units. -/
theorem accA_loads_apply (x : FVec Ideal S2048x33 .bf16) (b : Vec Ideal S1x32 .f32) (x1 : Vec Ideal S33x4096 .bf16)
    (x2 : Vec Ideal S4096x32 .bf16) (r : Fin 2048) (n : Fin 32) :
    accA x b (loadsA x1 x2) (ix2 r n)
      = b (ix2 (0 : Fin 1) n) + ∑ m : Fin 4096, relu (∑ k : Fin 33, x (ix2 r k) * x1 (ix2 k m)) * x2 (ix2 m n) := by
  rw [accA_apply, loadsA_eq, List.map_ofFn, List.sum_ofFn,
    ← sum_chunks fun m => relu (∑ k : Fin 33, x (ix2 r k) * x1 (ix2 k m)) * x2 (ix2 m n)]
  congr 1
  refine Finset.sum_congr rfl fun c _ => ?_
  show chunkA x (View.ld x1 (rectA c)) (View.ld x2 (rectA' c)) (ix2 r n) = _
  rw [chunkA_apply]
  refine Finset.sum_congr rfl fun j _ => ?_
  rw [ld_rectA']
  congr 2
  exact Finset.sum_congr rfl fun k _ => by rw [ld_rectA]

/-- With a column of ones in the input block and the bias row under the first weight matrix, the accumulator is the
    perceptron of `Spec`. -/
theorem accA_eq_mlp (x : FVec Ideal S2048x33 .bf16) (bv : Vec Ideal S1x32 .f32) (x1 : Vec Ideal S33x4096 .bf16)
    (x2 : Vec Ideal S4096x32 .bf16) (r : Fin 2048) (n : Fin 32) (xr : Fin 32 → EReal) (W1 : Mat 32 4096) (b1 : Arr 4096)
    (W2 : Mat 4096 32) (b2 : Arr 32)
    (hx : ∀ k : Fin 32, x (ix2 r k.castSucc) = xr k) (hx1 : x (ix2 r (Fin.last 32)) = 1)
    (hw : ∀ (k : Fin 32) (j : Fin 4096), x1 (ix2 k.castSucc j) = W1 (ix2 k j))
    (hb : ∀ j : Fin 4096, x1 (ix2 (Fin.last 32) j) = b1 (ix1 j))
    (hw2 : ∀ i, x2 i = W2 i) (hb2 : ∀ n : Fin 32, bv (ix2 (0 : Fin 1) n) = b2 (ix1 n)) :
    accA x bv (loadsA x1 x2) (ix2 r n) = mlp xr W1 b1 W2 b2 n := by
  rw [accA_loads_apply, hb2, add_comm]
  unfold mlp hid
  congr 1
  refine Finset.sum_congr rfl fun m _ => ?_
  rw [sum_aug (fun k => x (ix2 r k)) (fun k => x1 (ix2 k m)) xr (fun k => W1 (ix2 k m)) (b1 (ix1 m)) hx hx1
    (fun k => hw k m) (hb m), hw2]

/-! ## The two branches side by side -/

section Concat3
variable {α : Type} (A B : S1024x32.Idx → α) (C : S1024x1.Idx → α)
  (h : Shape.Concatenates [S1024x32, S1024x32, S1024x1] S1024x65 1) (r : Fin 1024) (k : Fin 65)

/-- Three blocks of 32, 32 and 1 columns side by side: a column below 32 is the first block's. -/
theorem concat3_fst (hk : k.val < 32) :
    concatenate S1024x65 1 [⟨S1024x32, A⟩, ⟨S1024x32, B⟩, ⟨S1024x1, C⟩] h (ix2 r k) = A (ix2 r ⟨k.val, hk⟩) :=
  concatenate_apply_piece (t := S1024x65) (1 : Fin 2) [⟨S1024x32, A⟩, ⟨S1024x32, B⟩, ⟨S1024x1, C⟩] h (ix2 r k) 0
    (show (0 : Nat) < 3 by omega) S1024x32 A rfl rfl 0 rfl (ix2 r ⟨k.val, hk⟩)
    (fun b hb => match b, hb with
      | ⟨0, _⟩, _ => rfl
      | ⟨1, _⟩, hb => absurd (Fin.ext rfl) hb)
    (show 0 + k.val = k.val by omega)

/-- A column from 32 to 63 is the second block's, 32 to the left. -/
theorem concat3_snd (h1 : 32 ≤ k.val) (h2 : k.val < 64) :
    concatenate S1024x65 1 [⟨S1024x32, A⟩, ⟨S1024x32, B⟩, ⟨S1024x1, C⟩] h (ix2 r k)
      = B (ix2 r ⟨k.val - 32, by omega⟩) :=
  concatenate_apply_piece (t := S1024x65) (1 : Fin 2) [⟨S1024x32, A⟩, ⟨S1024x32, B⟩, ⟨S1024x1, C⟩] h (ix2 r k) 1
    (show (1 : Nat) < 3 by omega) S1024x32 B rfl rfl 32 rfl (ix2 r ⟨k.val - 32, by omega⟩)
    (fun b hb => match b, hb with
      | ⟨0, _⟩, _ => rfl
      | ⟨1, _⟩, hb => absurd (Fin.ext rfl) hb)
    (show 32 + (k.val - 32) = k.val by omega)

/-- Column 64 is the third block's only column. -/
theorem concat3_last :
    concatenate S1024x65 1 [⟨S1024x32, A⟩, ⟨S1024x32, B⟩, ⟨S1024x1, C⟩] h (ix2 r (Fin.last 64)) = C (ix2 r (0 : Fin 1)) :=
  concatenate_apply_piece (t := S1024x65) (1 : Fin 2) [⟨S1024x32, A⟩, ⟨S1024x32, B⟩, ⟨S1024x1, C⟩] h (ix2 r (Fin.last 64)) 2
    (show (2 : Nat) < 3 by omega) S1024x1 C rfl rfl 64 rfl (ix2 r (0 : Fin 1))
    (fun b hb => match b, hb with
      | ⟨0, _⟩, _ => rfl
      | ⟨1, _⟩, hb => absurd (Fin.ext rfl) hb)
    rfl

end Concat3

/-- Columns 0–31 of the re-paired block: the rectified accumulator's row r. -/
theorem pairU_apply_fst (acc : FVec Ideal S2048x32 .f32) (r : Fin 1024) (k : Fin 65) (h : k.val < 32) :
    pairU acc (ix2 r k) = relu (acc (ix2 ⟨r.val, by have := r.isLt; omega⟩ ⟨k.val, h⟩)) := by
  unfold pairU relu
  rw [truncf_apply, concat3_fst _ _ _ _ r k h]
  refine (extractStridedSlice_apply ![0, 0] _ slices_S2048x32_o0_0_S1024x32 (ix2 r ⟨k.val, h⟩)
    (ix2 ⟨r.val, by have := r.isLt; omega⟩ ⟨k.val, h⟩) ?_).trans ?_
  · intro a
    match a with
    | ⟨0, _⟩ => show r.val = 0 + r.val; omega
    | ⟨1, _⟩ => show k.val = 0 + k.val; omega
  · rw [maximumf_apply, broadcast_apply, zero_f32]

/-- Columns 32–63: the rectified accumulator's row 1024 + r. -/
theorem pairU_apply_snd (acc : FVec Ideal S2048x32 .f32) (r : Fin 1024) (k : Fin 65) (h1 : 32 ≤ k.val) (h2 : k.val < 64) :
    pairU acc (ix2 r k) = relu (acc (ix2 ⟨1024 + r.val, by have := r.isLt; omega⟩ ⟨k.val - 32, by omega⟩)) := by
  unfold pairU relu
  rw [truncf_apply, concat3_snd _ _ _ _ r k h1 h2]
  refine (extractStridedSlice_apply ![1024, 0] _ slices_S2048x32_o1024_0_S1024x32 (ix2 r ⟨k.val - 32, by omega⟩)
    (ix2 ⟨1024 + r.val, by have := r.isLt; omega⟩ ⟨k.val - 32, by omega⟩) ?_).trans ?_
  · intro a
    match a with
    | ⟨0, _⟩ => rfl
    | ⟨1, _⟩ => show k.val - 32 = 0 + (k.val - 32); omega
  · rw [maximumf_apply, broadcast_apply, zero_f32]

/-- Column 64: the constant one. -/
theorem pairU_apply_last (acc : FVec Ideal S2048x32 .f32) (r : Fin 1024) : pairU acc (ix2 r (Fin.last 64)) = 1 := by
  unfold pairU
  rw [truncf_apply, concat3_last, broadcast_apply, one_f32]

/-- So the first 64 columns of row r are the two rectified rows side by side. -/
theorem pairU_castSucc (acc : FVec Ideal S2048x32 .f32) (r : Fin 1024) (k : Fin 64) :
    pairU acc (ix2 r k.castSucc)
      = pair (fun k' => relu (acc (ix2 ⟨r.val, by have := r.isLt; omega⟩ k')))
          (fun k' => relu (acc (ix2 ⟨1024 + r.val, by have := r.isLt; omega⟩ k'))) k := by
  unfold pair
  by_cases h : k.val < 32
  · rw [dif_pos h]; exact pairU_apply_fst acc r k.castSucc h
  · rw [dif_neg h]; exact pairU_apply_snd acc r k.castSucc (Nat.le_of_not_lt h) k.isLt

/-! ## Layers three and four -/

theorem hidB_apply (u : FVec Ideal S1024x65 .bf16) (w : Vec Ideal S65x256 .bf16) (r : Fin 1024) (j : Fin 256) :
    hidB u w (ix2 r j) = relu (∑ k : Fin 65, u (ix2 r k) * w (ix2 k j)) := by
  unfold hidB relu
  rw [maximumf_apply, truncf_apply, broadcast_apply, shapeCast_self,
    matmul_zero_apply dot_S1024x65_S65x256_S1024x256_1_0_0_1_n_n rfl u w r j]
  exact congrArg (max _) zero_bf16

theorem chunkB_apply (u : FVec Ideal S1024x65 .bf16) (w : Vec Ideal S65x256 .bf16) (w' : Vec Ideal S256x128 .bf16)
    (r : Fin 1024) (n : Fin 128) :
    chunkB u w w' (ix2 r n) = ∑ j : Fin 256, relu (∑ k : Fin 65, u (ix2 r k) * w (ix2 k j)) * w' (ix2 j n) := by
  unfold chunkB
  rw [shapeCast_self, matmul_zero_apply dot_S1024x256_S256x128_S1024x128_1_0_0_1_n_n rfl (hidB u w) w' r n]
  exact Finset.sum_congr rfl fun j _ => by rw [hidB_apply]

theorem accB_apply (u : FVec Ideal S1024x65 .bf16) (b : Vec Ideal S1x128 .f32)
    (ws : List (Vec Ideal S65x256 .bf16 × Vec Ideal S256x128 .bf16)) (r : Fin 1024) (n : Fin 128) :
    accB u b ws (ix2 r n) = b (ix2 (0 : Fin 1) n) + (ws.map fun p => chunkB u p.1 p.2 (ix2 r n)).sum := by
  unfold accB
  rw [foldl_addf_apply (fun p : Vec Ideal S65x256 .bf16 × Vec Ideal S256x128 .bf16 => chunkB u p.1 p.2), shapeCast_self]
  congr 1
  exact broadcastTo_apply b broadcasts_S1x128_S1024x128 (ix2 r n) (ix2 (0 : Fin 1) n) (fun a => match a with
    | ⟨0, _⟩ => by show 0 = if (1 : Nat) = 1 then 0 else _; rw [if_pos rfl]
    | ⟨1, _⟩ => by show n.val = if (128 : Nat) = 1 then 0 else n.val; rw [if_neg (by decide)])

/-- The run `c` of the extended `W3`: its columns 256 c … 256 c + 255. -/
abbrev rectB (c : Fin 16) : Rect S65x4096 :=
  Rect.unit ![0, 256 * c.val] S65x256.size (Rect.inb₂ (d := ![65, 4096]) (off := ![0, 256 * c.val]) (size := ![65, 256])
    (Nat.le_refl 65) (by show 256 * c.val + 256 ≤ 4096; have := c.isLt; omega))

/-- The run `c` of `W4`: its rows 256 c … 256 c + 255. -/
abbrev rectB' (c : Fin 16) : Rect S4096x128 :=
  Rect.unit ![256 * c.val, 0] S256x128.size (Rect.inb₂ (d := ![4096, 128]) (off := ![256 * c.val, 0]) (size := ![256, 128])
    (by show 256 * c.val + 256 ≤ 4096; have := c.isLt; omega) (Nat.le_refl 128))

theorem loadsB_eq (x4 : Vec Ideal S65x4096 .bf16) (x5 : Vec Ideal S4096x128 .bf16) :
    loadsB x4 x5 = List.ofFn fun c : Fin 16 => (View.ld x4 (rectB c), View.ld x5 (rectB' c)) := rfl

theorem ld_rectB (x4 : Vec Ideal S65x4096 .bf16) (c : Fin 16) (k : Fin 65) (j : Fin 256) :
    View.ld x4 (rectB c) (ix2 k j) = x4 (ix2 k ⟨256 * c.val + j.val, by have := c.isLt; have := j.isLt; omega⟩) := by
  show x4 ((rectB c).idx (ix2 k j)) = _
  refine congrArg x4 (Shape.idx_ext₂ ?_ ?_)
  · show 0 + 1 * k.val = k.val; omega
  · show 256 * c.val + 1 * j.val = 256 * c.val + j.val; omega

theorem ld_rectB' (x5 : Vec Ideal S4096x128 .bf16) (c : Fin 16) (j : Fin 256) (n : Fin 128) :
    View.ld x5 (rectB' c) (ix2 j n) = x5 (ix2 ⟨256 * c.val + j.val, by have := c.isLt; have := j.isLt; omega⟩ n) := by
  show x5 ((rectB' c).idx (ix2 j n)) = _
  refine congrArg x5 (Shape.idx_ext₂ ?_ ?_)
  · show 256 * c.val + 1 * j.val = 256 * c.val + j.val; omega
  · show 0 + 1 * n.val = n.val; omega

theorem accB_loads_apply (u : FVec Ideal S1024x65 .bf16) (b : Vec Ideal S1x128 .f32) (x4 : Vec Ideal S65x4096 .bf16)
    (x5 : Vec Ideal S4096x128 .bf16) (r : Fin 1024) (n : Fin 128) :
    accB u b (loadsB x4 x5) (ix2 r n)
      = b (ix2 (0 : Fin 1) n) + ∑ m : Fin 4096, relu (∑ k : Fin 65, u (ix2 r k) * x4 (ix2 k m)) * x5 (ix2 m n) := by
  rw [accB_apply, loadsB_eq, List.map_ofFn, List.sum_ofFn,
    ← sum_chunks fun m => relu (∑ k : Fin 65, u (ix2 r k) * x4 (ix2 k m)) * x5 (ix2 m n)]
  congr 1
  refine Finset.sum_congr rfl fun c _ => ?_
  show chunkB u (View.ld x4 (rectB c)) (View.ld x5 (rectB' c)) (ix2 r n) = _
  rw [chunkB_apply]
  refine Finset.sum_congr rfl fun j _ => ?_
  rw [ld_rectB']
  congr 2
  exact Finset.sum_congr rfl fun k _ => by rw [ld_rectB]

theorem accB_eq_mlp (u : FVec Ideal S1024x65 .bf16) (bv : Vec Ideal S1x128 .f32) (x4 : Vec Ideal S65x4096 .bf16)
    (x5 : Vec Ideal S4096x128 .bf16) (r : Fin 1024) (n : Fin 128) (o : Fin 64 → EReal) (W3 : Mat 64 4096) (b3 : Arr 4096)
    (W4 : Mat 4096 128) (b4 : Arr 128)
    (hu : ∀ k : Fin 64, u (ix2 r k.castSucc) = o k) (hu1 : u (ix2 r (Fin.last 64)) = 1)
    (hw : ∀ (k : Fin 64) (j : Fin 4096), x4 (ix2 k.castSucc j) = W3 (ix2 k j))
    (hb : ∀ j : Fin 4096, x4 (ix2 (Fin.last 64) j) = b3 (ix1 j))
    (hw4 : ∀ i, x5 i = W4 i) (hb4 : ∀ n : Fin 128, bv (ix2 (0 : Fin 1) n) = b4 (ix1 n)) :
    accB u bv (loadsB x4 x5) (ix2 r n) = mlp o W3 b3 W4 b4 n := by
  rw [accB_loads_apply, hb4, add_comm]
  unfold mlp hid
  congr 1
  refine Finset.sum_congr rfl fun m _ => ?_
  rw [sum_aug (fun k => u (ix2 r k)) (fun k => x4 (ix2 k m)) o (fun k => W3 (ix2 k m)) (b3 (ix1 m)) hu hu1
    (fun k => hw k m) (hb m), hw4]

/-! ## A stream -/

/-- Output row r of a stream: the network applied to the stream's stacked input rows r and 1024 + r. -/
theorem stream_apply (x : Vec Ideal S2048x33 .bf16) (b2v : Vec Ideal S1x32 .f32) (x1 : Vec Ideal S33x4096 .bf16)
    (x2 : Vec Ideal S4096x32 .bf16) (b4v : Vec Ideal S1x128 .f32) (x4 : Vec Ideal S65x4096 .bf16)
    (x5 : Vec Ideal S4096x128 .bf16) (r : Fin 1024) (n : Fin 128) (p q : Fin 32 → EReal)
    (W1 : Mat 32 4096) (b1 : Arr 4096) (W2 : Mat 4096 32) (b2 : Arr 32) (W3 : Mat 64 4096) (b3 : Arr 4096)
    (W4 : Mat 4096 128) (b4 : Arr 128)
    (hp : ∀ k : Fin 32, x (ix2 ⟨r.val, by have := r.isLt; omega⟩ k.castSucc) = p k)
    (hp1 : x (ix2 ⟨r.val, by have := r.isLt; omega⟩ (Fin.last 32)) = 1)
    (hq : ∀ k : Fin 32, x (ix2 ⟨1024 + r.val, by have := r.isLt; omega⟩ k.castSucc) = q k)
    (hq1 : x (ix2 ⟨1024 + r.val, by have := r.isLt; omega⟩ (Fin.last 32)) = 1)
    (hw1 : ∀ (k : Fin 32) (j : Fin 4096), x1 (ix2 k.castSucc j) = W1 (ix2 k j))
    (hb1 : ∀ j : Fin 4096, x1 (ix2 (Fin.last 32) j) = b1 (ix1 j))
    (hw2 : ∀ i, x2 i = W2 i) (hb2 : ∀ n : Fin 32, b2v (ix2 (0 : Fin 1) n) = b2 (ix1 n))
    (hw3 : ∀ (k : Fin 64) (j : Fin 4096), x4 (ix2 k.castSucc j) = W3 (ix2 k j))
    (hb3 : ∀ j : Fin 4096, x4 (ix2 (Fin.last 64) j) = b3 (ix1 j))
    (hw4 : ∀ i, x5 i = W4 i) (hb4 : ∀ n : Fin 128, b4v (ix2 (0 : Fin 1) n) = b4 (ix1 n)) :
    stream x b2v (loadsA x1 x2) b4v (loadsB x4 x5) (ix2 r n)
      = mlp (pair (branch p W1 b1 W2 b2) (branch q W1 b1 W2 b2)) W3 b3 W4 b4 n := by
  unfold stream
  rw [shapeCast_self]
  refine accB_eq_mlp _ b4v x4 x5 r n _ W3 b3 W4 b4 (fun k => ?_) (pairU_apply_last _ r) hw3 hb3 hw4 hb4
  rw [pairU_castSucc]
  congr 1
  · funext k'
    unfold branch
    rw [accA_eq_mlp x b2v x1 x2 _ k' p W1 b1 W2 b2 hp hp1 hw1 hb1 hw2 hb2]
  · funext k'
    unfold branch
    rw [accA_eq_mlp x b2v x1 x2 _ k' q W1 b1 W2 b2 hq hq1 hw1 hb1 hw2 hb2]

end Cert.KernelValue

end
-- ==== Proof.KernelHost.lean ====
/-
  What the host operations in front of the kernel's one call put in the arrays the call reads.

  The input matrix: `state` and `next_state` (16384 rows of 32 entries) each get a 33rd column that is 1 everywhere; each is
  cut into 16 groups of 1024 rows; group by group the two are joined (1024 rows of the first, then 1024 of the second),
  and the 16 groups of 2048 rows are laid end to end. So row `2048 a + b` (`a < 16`, `b < 2048`) of the result is row
  `1024 a + b` of the first when `b < 1024` and row `1024 a + (b − 1024)` of the second otherwise, and column 32 is 1.
  The weights: `W1` with `b1` as a 33rd row, `W3` with `b3` as a 65th row, `W2` and `W4` as they are, `b2` and `b4` as
  one-row matrices. A change of number format is the identity on extended reals.

  Each operation is first read at an index over variables (a join of two arrays along an axis reads one of them, the
  axis coordinate the first's extent less in the second; a regrouping of rows keeps the row-major position); then each
  array is written as the operations' composed term over the arguments, and read at the index through those lemmas.
-/
import proofs.«146832_g11802570129985_cont_fleet_79_18_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.IdealRules
noncomputable section

namespace Cert.KernelHost

open Idealize.ShloMosaic Idealize.ShloMosaic.TcCoe Idealize.ShloMosaic.ValueIdx Idealize.SL.Sem Cert.KernelIdeal Cert.KernelIdeal.Gen
open Idealize.ShloMosaic.StableHlo

/-! ## The operations in front of the call, one at a time, read at an index -/

section Ops
variable {α : Type}

/-- Two matrices side by side: a column of the first. -/
theorem cols_left {n d e D : Nat} (x : (⟨2, ![n, d]⟩ : Shape).Idx → α) (y : (⟨2, ![n, e]⟩ : Shape).Idx → α)
    (h : Shape.Concatenates [(⟨2, ![n, d]⟩ : Shape), ⟨2, ![n, e]⟩] ⟨2, ![n, D]⟩ 1) (r : Fin n) (k : Fin d) (K : Fin D)
    (hK : K.val = k.val) :
    concatenate ⟨2, ![n, D]⟩ 1 [⟨⟨2, ![n, d]⟩, x⟩, ⟨⟨2, ![n, e]⟩, y⟩] h (ix2 r K) = x (ix2 r k) :=
  concatenate_pair_apply_left 1 x y h (ix2 r K) rfl (ix2 r k) fun b =>
    match b with | ⟨0, _⟩ => rfl | ⟨1, _⟩ => hK.symm

/-- Two matrices side by side: a column of the second, its number the first's width less. -/
theorem cols_right {n d e D : Nat} (x : (⟨2, ![n, d]⟩ : Shape).Idx → α) (y : (⟨2, ![n, e]⟩ : Shape).Idx → α)
    (h : Shape.Concatenates [(⟨2, ![n, d]⟩ : Shape), ⟨2, ![n, e]⟩] ⟨2, ![n, D]⟩ 1) (r : Fin n) (k : Fin e) (K : Fin D)
    (hK : k.val + d = K.val) :
    concatenate ⟨2, ![n, D]⟩ 1 [⟨⟨2, ![n, d]⟩, x⟩, ⟨⟨2, ![n, e]⟩, y⟩] h (ix2 r K) = y (ix2 r k) :=
  concatenate_pair_apply_right 1 x y h (ix2 r K) rfl rfl (ix2 r k)
    (fun b => match b with | ⟨0, _⟩ => fun _ => rfl | ⟨1, _⟩ => fun hb => absurd rfl hb) hK

/-- One matrix on top of another: a row of the first. -/
theorem rows_left {d e D n : Nat} (x : (⟨2, ![d, n]⟩ : Shape).Idx → α) (y : (⟨2, ![e, n]⟩ : Shape).Idx → α)
    (h : Shape.Concatenates [(⟨2, ![d, n]⟩ : Shape), ⟨2, ![e, n]⟩] ⟨2, ![D, n]⟩ 0) (k : Fin d) (K : Fin D) (j : Fin n)
    (hK : K.val = k.val) :
    concatenate ⟨2, ![D, n]⟩ 0 [⟨⟨2, ![d, n]⟩, x⟩, ⟨⟨2, ![e, n]⟩, y⟩] h (ix2 K j) = x (ix2 k j) :=
  concatenate_pair_apply_left 0 x y h (ix2 K j) rfl (ix2 k j) fun b =>
    match b with | ⟨0, _⟩ => hK.symm | ⟨1, _⟩ => rfl

/-- One matrix on top of another: a row of the second, its number the first's height less. -/
theorem rows_right {d e D n : Nat} (x : (⟨2, ![d, n]⟩ : Shape).Idx → α) (y : (⟨2, ![e, n]⟩ : Shape).Idx → α)
    (h : Shape.Concatenates [(⟨2, ![d, n]⟩ : Shape), ⟨2, ![e, n]⟩] ⟨2, ![D, n]⟩ 0) (k : Fin e) (K : Fin D) (j : Fin n)
    (hK : k.val + d = K.val) :
    concatenate ⟨2, ![D, n]⟩ 0 [⟨⟨2, ![d, n]⟩, x⟩, ⟨⟨2, ![e, n]⟩, y⟩] h (ix2 K j) = y (ix2 k j) :=
  concatenate_pair_apply_right 0 x y h (ix2 K j) rfl rfl (ix2 k j)
    (fun b => match b with | ⟨0, _⟩ => fun hb => absurd rfl hb | ⟨1, _⟩ => fun _ => rfl) hK

/-- Two stacks of matrices joined along the middle axis: a row of the first stack's matrix. -/
theorem mid_left {g p q P w : Nat} (x : (⟨3, ![g, p, w]⟩ : Shape).Idx → α) (y : (⟨3, ![g, q, w]⟩ : Shape).Idx → α)
    (h : Shape.Concatenates [(⟨3, ![g, p, w]⟩ : Shape), ⟨3, ![g, q, w]⟩] ⟨3, ![g, P, w]⟩ 1)
    (a : Fin g) (r : Fin p) (B : Fin P) (k : Fin w) (hB : B.val = r.val) :
    concatenate ⟨3, ![g, P, w]⟩ 1 [⟨⟨3, ![g, p, w]⟩, x⟩, ⟨⟨3, ![g, q, w]⟩, y⟩] h (ix3 a B k) = x (ix3 a r k) :=
  concatenate_pair_apply_left 1 x y h (ix3 a B k) rfl (ix3 a r k) fun b =>
    match b with | ⟨0, _⟩ => rfl | ⟨1, _⟩ => hB.symm | ⟨2, _⟩ => rfl

/-- Two stacks of matrices joined along the middle axis: a row of the second stack's matrix, its number the first's
    height less. -/
theorem mid_right {g p q P w : Nat} (x : (⟨3, ![g, p, w]⟩ : Shape).Idx → α) (y : (⟨3, ![g, q, w]⟩ : Shape).Idx → α)
    (h : Shape.Concatenates [(⟨3, ![g, p, w]⟩ : Shape), ⟨3, ![g, q, w]⟩] ⟨3, ![g, P, w]⟩ 1)
    (a : Fin g) (r : Fin q) (B : Fin P) (k : Fin w) (hB : r.val + p = B.val) :
    concatenate ⟨3, ![g, P, w]⟩ 1 [⟨⟨3, ![g, p, w]⟩, x⟩, ⟨⟨3, ![g, q, w]⟩, y⟩] h (ix3 a B k) = y (ix3 a r k) :=
  concatenate_pair_apply_right 1 x y h (ix3 a B k) rfl rfl (ix3 a r k)
    (fun b => match b with | ⟨0, _⟩ => fun _ => rfl | ⟨1, _⟩ => fun hb => absurd rfl hb | ⟨2, _⟩ => fun _ => rfl) hB

/-- The 16384 rows taken as 16 groups of 1024: row `r` of group `a` is row `1024 a + r`. -/
theorem groups_apply (x : S16384x33.Idx → α) (h : S16384x33.ShapeCasts S16x1024x33) (a : Fin 16) (r : Fin 1024) (k : Fin 33)
    (R : Fin 16384) (hR : R.val = 1024 * a.val + r.val) :
    shapeCast S16x1024x33 x h (ix3 a r k) = x (ix2 R k) :=
  shapeCast_apply x h (ix3 a r k) (ix2 R k) (by
    rw [Shape.rowMajor_val_two, Shape.rowMajor_val_three]
    show R.val * 33 + k.val = (a.val * 1024 + r.val) * 33 + k.val
    rw [hR]; omega)

/-- The 16 groups of 2048 rows laid end to end: row `2048 a + b` is row `b` of group `a`. -/
theorem flat_apply (x : S16x2048x33.Idx → α) (h : S16x2048x33.ShapeCasts S32768x33) (a : Fin 16) (b : Fin 2048) (k : Fin 33)
    (R : Fin 32768) (hR : R.val = 2048 * a.val + b.val) :
    shapeCast S32768x33 x h (ix2 R k) = x (ix3 a b k) :=
  shapeCast_apply x h (ix2 R k) (ix3 a b k) (by
    rw [Shape.rowMajor_val_two, Shape.rowMajor_val_three]
    show (a.val * 2048 + b.val) * 33 + k.val = R.val * 33 + k.val
    rw [hR]; omega)

/-- A scalar spread over a column reads the scalar. -/
theorem spread_apply (x : S_.Idx → α) (j : S16384x1.Idx) : broadcastInDim S16384x1 ![] bcast_S_S16384x1 x j = x ix0 :=
  broadcastInDim_apply _ _ x j ix0 fun a => a.elim0

/-- A vector of 4096 entries as a one-row matrix reads the vector. -/
theorem asRow_apply (x : S4096.Idx → α) (u : Fin 1) (j : Fin 4096) :
    broadcastInDim S1x4096 ![1] bcast_S4096_S1x4096_1 x (ix2 u j) = x (ix1 j) :=
  broadcastInDim_apply _ _ x (ix2 u j) (ix1 j) fun a =>
    match a with | ⟨0, _⟩ => (if_neg (show ¬ (4096 : Nat) = 1 by decide)).symm

end Ops

/-! ## The arrays the call stages, as terms over the arguments -/

section Arrays

/-- A matrix of 32 columns with a 33rd appended that is 1.0 everywhere (the word of 1.0, spread over the column),
    in the narrower format. -/
def aug (x : (⟨S16384x32, .f32⟩ : BufTy).Contents (Elt Ideal)) : (⟨S16384x33, .bf16⟩ : BufTy).Contents (Elt Ideal) :=
  truncf .bf16
    (concatenate S16384x33 1
      [⟨S16384x32, x⟩,
        ⟨S16384x1, broadcastInDim S16384x1 ![] bcast_S_S16384x1 (constant (F := Ideal) S_ .f32 0x3F800000#32)⟩]
      concatenates_S16384x32_S16384x1_S16384x33_d1)
    bitsLt_bf16_f32

/-- Its first 32 columns are the matrix's: the format change is the identity on extended reals. -/
theorem aug_cast (x : (⟨S16384x32, .f32⟩ : BufTy).Contents (Elt Ideal)) (R : Fin 16384) (k : Fin 32) :
    aug x (ix2 R k.castSucc) = x (ix2 R k) :=
  cols_left (n := 16384) (d := 32) (e := 1) (D := 33) x _ concatenates_S16384x32_S16384x1_S16384x33_d1 R k k.castSucc rfl

/-- Its last column is 1: the word `0x3F800000` is 1.0's. -/
theorem aug_last (x : (⟨S16384x32, .f32⟩ : BufTy).Contents (Elt Ideal)) (R : Fin 16384) :
    aug x (ix2 R (Fin.last 32)) = (1 : EReal) :=
  (cols_right (n := 16384) (d := 32) (e := 1) (D := 33) x _ concatenates_S16384x32_S16384x1_S16384x33_d1 R (0 : Fin 1)
      (Fin.last 32) rfl).trans
    ((spread_apply _ _).trans ((constant_apply _ _).trans (IdealRules.sign_bit.ideal_onePat .f32)))

/-- Two matrices of 16384 rows, each cut into 16 groups of 1024 rows, joined group by group (the first's 1024 rows,
    then the second's), the 16 groups of 2048 rows laid end to end. -/
def xall (P Q : (⟨S16384x33, .bf16⟩ : BufTy).Contents (Elt Ideal)) : (⟨S32768x33, .bf16⟩ : BufTy).Contents (Elt Ideal) :=
  shapeCast S32768x33
    (concatenate S16x2048x33 1
      [⟨S16x1024x33, shapeCast S16x1024x33 P shapeCasts_S16384x33_S16x1024x33⟩,
        ⟨S16x1024x33, shapeCast S16x1024x33 Q shapeCasts_S16384x33_S16x1024x33⟩]
      concatenates_S16x1024x33_S16x1024x33_S16x2048x33_d1)
    shapeCasts_S16x2048x33_S32768x33

/-- Row `2048 a + r`, `r < 1024`, is the first matrix's row `1024 a + r`. -/
theorem xall_lo (P Q : (⟨S16384x33, .bf16⟩ : BufTy).Contents (Elt Ideal)) (a : Fin 16) (r : Fin 1024) (k : Fin 33)
    (R : Fin 32768) (R' : Fin 16384) (hR : R.val = 2048 * a.val + r.val) (hR' : R'.val = 1024 * a.val + r.val) :
    xall P Q (ix2 R k) = P (ix2 R' k) :=
  (flat_apply _ _ a ⟨r.val, by have := r.isLt; omega⟩ k R hR).trans
    ((mid_left (g := 16) (p := 1024) (q := 1024) (P := 2048) (w := 33) _ _ _ a r ⟨r.val, by have := r.isLt; omega⟩ k rfl).trans
      (groups_apply P _ a r k R' hR'))

/-- Row `2048 a + 1024 + r`, `r < 1024`, is the second matrix's row `1024 a + r`. -/
theorem xall_hi (P Q : (⟨S16384x33, .bf16⟩ : BufTy).Contents (Elt Ideal)) (a : Fin 16) (r : Fin 1024) (k : Fin 33)
    (R : Fin 32768) (R' : Fin 16384) (hR : R.val = 2048 * a.val + 1024 + r.val) (hR' : R'.val = 1024 * a.val + r.val) :
    xall P Q (ix2 R k) = Q (ix2 R' k) :=
  (flat_apply _ _ a ⟨r.val + 1024, by have := r.isLt; omega⟩ k R (by show R.val = 2048 * a.val + (r.val + 1024); omega)).trans
    ((mid_right (g := 16) (p := 1024) (q := 1024) (P := 2048) (w := 33) _ _ _ a r ⟨r.val + 1024, by have := r.isLt; omega⟩ k rfl).trans
      (groups_apply Q _ a r k R' hR'))

end Arrays

/-! ## What each staged array holds when the call is entered -/

variable (m : (ℓ : Loc nD τ sig) → Buf (Elt Ideal) ℓ) (c : Dev nD)

/-- The staged input: the two argument matrices, each with its column of ones, interleaved in groups of 1024 rows. -/
theorem v8_eq : (V m c main_v8 : S32768x33.Idx → EReal)
    = xall (aug (m ((c : Thread nD τ).loc main_arg0))) (aug (m ((c : Thread nD τ).loc main_arg1))) := by
  dsimp only [Gen.V, Gen.hostOps0]; after_results; rfl

/-- The first layer's weights with the bias as a 33rd row. -/
theorem v11_eq : (V m c main_v11 : S33x4096.Idx → EReal)
    = concatenate S33x4096 0
        [⟨S32x4096, m ((c : Thread nD τ).loc main_arg2)⟩,
          ⟨S1x4096, broadcastInDim S1x4096 ![1] bcast_S4096_S1x4096_1 (m ((c : Thread nD τ).loc main_arg3))⟩]
        concatenates_S32x4096_S1x4096_S33x4096_d0 := by
  dsimp only [Gen.V, Gen.hostOps0]; after_results; rfl

/-- The third layer's weights with the bias as a 65th row. -/
theorem v14_eq : (V m c main_v14 : S65x4096.Idx → EReal)
    = concatenate S65x4096 0
        [⟨S64x4096, m ((c : Thread nD τ).loc main_arg6)⟩,
          ⟨S1x4096, broadcastInDim S1x4096 ![1] bcast_S4096_S1x4096_1 (m ((c : Thread nD τ).loc main_arg7))⟩]
        concatenates_S64x4096_S1x4096_S65x4096_d0 := by
  dsimp only [Gen.V, Gen.hostOps0]; after_results; rfl

theorem v15_eq : (V m c main_v15 : S4096x32.Idx → EReal) = m ((c : Thread nD τ).loc main_arg4) := by
  dsimp only [Gen.V, Gen.hostOps0]; after_results; rfl

theorem v16_eq : (V m c main_v16 : S1x32.Idx → EReal)
    = shapeCast S1x32 (m ((c : Thread nD τ).loc main_arg5)) shapeCasts_S32_S1x32 := by
  dsimp only [Gen.V, Gen.hostOps0]; after_results; rfl

theorem v17_eq : (V m c main_v17 : S4096x128.Idx → EReal) = m ((c : Thread nD τ).loc main_arg8) := by
  dsimp only [Gen.V, Gen.hostOps0]; after_results; rfl

theorem v18_eq : (V m c main_v18 : S1x128.Idx → EReal)
    = shapeCast S1x128 (m ((c : Thread nD τ).loc main_arg9)) shapeCasts_S128_S1x128 := by
  dsimp only [Gen.V, Gen.hostOps0]; after_results; rfl

/-- Rows `2048 a + r`, `r < 1024`, of the staged input hold `state`'s rows `1024 a + r` in their first 32 columns. -/
theorem xall_state (a : Fin 16) (r : Fin 1024) (k : Fin 32) : V m c main_v8 (ix2 (⟨2048 * a.val + r.val, by have := a.isLt; have := r.isLt; omega⟩ : Fin 32768) k.castSucc) = m ((c : Thread nD τ).loc main_arg0) (ix2 (⟨1024 * a.val + r.val, by have := a.isLt; have := r.isLt; omega⟩ : Fin 16384) k) :=
  (congrFun (v8_eq m c) _).trans ((xall_lo _ _ a r k.castSucc _ _ rfl rfl).trans (aug_cast _ _ k))

/-- Rows `2048 a + 1024 + r`, `r < 1024`, hold `next_state`'s rows `1024 a + r` in their first 32 columns. -/
theorem xall_next  (a : Fin 16) (r : Fin 1024) (k : Fin 32) : V m c main_v8 (ix2 (⟨2048 * a.val + 1024 + r.val, by have := a.isLt; have := r.isLt; omega⟩ : Fin 32768) k.castSucc) = m ((c : Thread nD τ).loc main_arg1) (ix2 (⟨1024 * a.val + r.val, by have := a.isLt; have := r.isLt; omega⟩ : Fin 16384) k) :=
  (congrFun (v8_eq m c) _).trans ((xall_hi _ _ a r k.castSucc _ _ rfl rfl).trans (aug_cast _ _ k))

/-- The 33rd column of the staged input is 1 in every row: a row is `2048 a + b`, and `b` falls in the first or the
    second 1024 of its group. -/
theorem xall_one (R : Fin 32768) : V m c main_v8 (ix2 R (Fin.last 32)) = (1 : EReal) := by
  have hR := R.isLt
  refine (congrFun (v8_eq m c) _).trans ?_
  by_cases hlo : R.val % 2048 < 1024
  · exact (xall_lo _ _ ⟨R.val / 2048, by omega⟩ ⟨R.val % 2048, hlo⟩ (Fin.last 32) R
      ⟨1024 * (R.val / 2048) + R.val % 2048, by omega⟩ (by show R.val = 2048 * (R.val / 2048) + R.val % 2048; omega) rfl).trans
      (aug_last _ _)
  · exact (xall_hi _ _ ⟨R.val / 2048, by omega⟩ ⟨R.val % 2048 - 1024, by omega⟩ (Fin.last 32) R
      ⟨1024 * (R.val / 2048) + (R.val % 2048 - 1024), by omega⟩
      (by show R.val = 2048 * (R.val / 2048) + 1024 + (R.val % 2048 - 1024); omega) rfl).trans
      (aug_last _ _)

/-- The first 32 rows of the staged first-layer weights are `W1`'s. -/
theorem w1aug_w (k : Fin 32) (j : Fin 4096) : V m c main_v11 (ix2 k.castSucc j) = m ((c : Thread nD τ).loc main_arg2) (ix2 k j) :=
  (congrFun (v11_eq m c) _).trans
    (rows_left (d := 32) (e := 1) (D := 33) (n := 4096) _ _ concatenates_S32x4096_S1x4096_S33x4096_d0 k k.castSucc j rfl)

/-- Their 33rd row is the bias `b1`. -/
theorem w1aug_b (j : Fin 4096) : V m c main_v11 (ix2 (Fin.last 32) j) = m ((c : Thread nD τ).loc main_arg3) (ix1 j) :=
  (congrFun (v11_eq m c) _).trans
    ((rows_right (d := 32) (e := 1) (D := 33) (n := 4096) _ _ concatenates_S32x4096_S1x4096_S33x4096_d0 (0 : Fin 1)
        (Fin.last 32) j rfl).trans (asRow_apply _ 0 j))

/-- The staged second-layer weights are `W2`. -/
theorem w2_eq (i : S4096x32.Idx) : V m c main_v15 i = m ((c : Thread nD τ).loc main_arg4) i :=
  congrFun (v15_eq m c) i

/-- The staged second-layer bias, a one-row matrix, is `b2`. -/
theorem b2_eq (n : Fin 32) : V m c main_v16 (ix2 (0 : Fin 1) n) = m ((c : Thread nD τ).loc main_arg5) (ix1 n) :=
  (congrFun (v16_eq m c) _).trans (shapeCast_a_1a_apply _ _ 0 n)

/-- The first 64 rows of the staged third-layer weights are `W3`'s. -/
theorem w3aug_w (k : Fin 64) (j : Fin 4096) : V m c main_v14 (ix2 k.castSucc j) = m ((c : Thread nD τ).loc main_arg6) (ix2 k j) :=
  (congrFun (v14_eq m c) _).trans
    (rows_left (d := 64) (e := 1) (D := 65) (n := 4096) _ _ concatenates_S64x4096_S1x4096_S65x4096_d0 k k.castSucc j rfl)

/-- Their 65th row is the bias `b3`. -/
theorem w3aug_b (j : Fin 4096) : V m c main_v14 (ix2 (Fin.last 64) j) = m ((c : Thread nD τ).loc main_arg7) (ix1 j) :=
  (congrFun (v14_eq m c) _).trans
    ((rows_right (d := 64) (e := 1) (D := 65) (n := 4096) _ _ concatenates_S64x4096_S1x4096_S65x4096_d0 (0 : Fin 1)
        (Fin.last 64) j rfl).trans (asRow_apply _ 0 j))

/-- The staged fourth-layer weights are `W4`. -/
theorem w4_eq (i : S4096x128.Idx) : V m c main_v17 i = m ((c : Thread nD τ).loc main_arg8) i :=
  congrFun (v17_eq m c) i

/-- The staged fourth-layer bias, a one-row matrix, is `b4`. -/
theorem b4_eq (n : Fin 128) : V m c main_v18 (ix2 (0 : Fin 1) n) = m ((c : Thread nD τ).loc main_arg9) (ix1 n) :=
  (congrFun (v18_eq m c) _).trans (shapeCast_a_1a_apply _ _ 0 n)

end Cert.KernelHost
end
-- ==== Proof.KernelFinal.lean ====
/-
  From the blocks to the whole array.

  Grid point t (of 8) stages rows 4096 t … 4096 t + 4095 of the stacked input and every weight array whole, and writes
  back rows 2048 t … 2048 t + 2047 of the result. Within the staged input block, rows 2048 s + r and 2048 s + 1024 + r
  (stream s < 2, r < 1024) are row 2048 t + 1024 s + r of `state` and of `next_state`, extended by a one; the stream's
  output row r lands in row 1024 s + r of the output block, that is in row 2048 t + 1024 s + r of the result. So every
  point writes back its block of the network's output `Spec.G` of the argument arrays, the 8 blocks cover the 16384
  rows, and the result array ends holding `Spec.G`.
-/
import proofs.«146832_g11802570129985_cont_fleet_79_18_alg».proof.Proof.Gen.KernelIdeal.Value
import proofs.«146832_g11802570129985_cont_fleet_79_18_alg».proof.Proof.KernelValue
import proofs.«146832_g11802570129985_cont_fleet_79_18_alg».proof.Proof.KernelHost

set_option maxRecDepth 16384

noncomputable section

namespace Cert.KernelFinal

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (m : (ℓ : Loc nD τ sig) → Buf (Elt Ideal) ℓ) (ρ : Dev nD → PrngReg)

/-- The network on the argument arrays as launched. -/
def Gm (c : Dev nD) : S16384x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The grid has 8 points. -/
theorem point_lt : ∀ t : Fin cfg0.N, t.val < 8 := (by decide +kernel : ∀ t : Fin grid0.N, t.val < 8)

/-- The printed index maps over the grid: the stacked input and the result move with the point along the rows, every
    other array is staged whole. -/
theorem idx_facts : ∀ t : Fin cfg0.N, win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The staged blocks -/

/-- Row q of the input block at point t is row 4096 t + q of the stacked input. -/
theorem iblk0_apply (c : Dev nD) (t : Fin cfg0.N) (q : Fin 4096) (k : Fin 33) :
    iblk m c 0 t (ix2 q k)
      = V m c main_v8 (ix2 (⟨4096 * t.val + q.val, by have := point_lt t; have := q.isLt; omega⟩ : Fin 32768) k) := by
  obtain ⟨_, _, e00, e01, _⟩ := idx_facts t
  show V m c main_v8 (((cfg0.win 0).blk t).view.emb (ix2 q k)) = _
  refine congrArg (V m c main_v8) (funext fun a => Fin.ext ?_)
  match a with
  | ⟨0, _⟩ => show win0_0.index t (0 : Fin 2) * 4096 + 1 * q.val = 4096 * t.val + q.val; omega
  | ⟨1, _⟩ => show win0_0.index t (1 : Fin 2) * 33 + 1 * k.val = k.val; omega

theorem iblk1_apply (c : Dev nD) (t : Fin cfg0.N) (y : S33x4096.Idx) : iblk m c 1 t y = V m c main_v11 y := by
  obtain ⟨_, _, _, _, e10, e11, e20, e21, e30, e31, e40, e41, e50, e51, e60, e61⟩ := idx_facts t
  show V m c main_v11 (((cfg0.win 1).blk t).view.emb y) = _
  refine congrArg (V m c main_v11) (funext fun a => Fin.ext ?_)
  match a with
  | ⟨0, _⟩ => show win0_1.index t (0 : Fin 2) * 33 + 1 * (y 0).val = (y 0).val; omega
  | ⟨1, _⟩ => show win0_1.index t (1 : Fin 2) * 4096 + 1 * (y 1).val = (y 1).val; omega

theorem iblk2_apply (c : Dev nD) (t : Fin cfg0.N) (y : S4096x32.Idx) : iblk m c 2 t y = V m c main_v15 y := by
  obtain ⟨_, _, _, _, e10, e11, e20, e21, e30, e31, e40, e41, e50, e51, e60, e61⟩ := idx_facts t
  show V m c main_v15 (((cfg0.win 2).blk t).view.emb y) = _
  refine congrArg (V m c main_v15) (funext fun a => Fin.ext ?_)
  match a with
  | ⟨0, _⟩ => show win0_2.index t (0 : Fin 2) * 4096 + 1 * (y 0).val = (y 0).val; omega
  | ⟨1, _⟩ => show win0_2.index t (1 : Fin 2) * 32 + 1 * (y 1).val = (y 1).val; omega

theorem iblk3_apply (c : Dev nD) (t : Fin cfg0.N) (y : S1x32.Idx) : iblk m c 3 t y = V m c main_v16 y := by
  obtain ⟨_, _, _, _, e10, e11, e20, e21, e30, e31, e40, e41, e50, e51, e60, e61⟩ := idx_facts t
  show V m c main_v16 (((cfg0.win 3).blk t).view.emb y) = _
  refine congrArg (V m c main_v16) (funext fun a => Fin.ext ?_)
  match a with
  | ⟨0, _⟩ => show win0_3.index t (0 : Fin 2) * 1 + 1 * (y 0).val = (y 0).val; omega
  | ⟨1, _⟩ => show win0_3.index t (1 : Fin 2) * 32 + 1 * (y 1).val = (y 1).val; omega

theorem iblk4_apply (c : Dev nD) (t : Fin cfg0.N) (y : S65x4096.Idx) : iblk m c 4 t y = V m c main_v14 y := by
  obtain ⟨_, _, _, _, e10, e11, e20, e21, e30, e31, e40, e41, e50, e51, e60, e61⟩ := idx_facts t
  show V m c main_v14 (((cfg0.win 4).blk t).view.emb y) = _
  refine congrArg (V m c main_v14) (funext fun a => Fin.ext ?_)
  match a with
  | ⟨0, _⟩ => show win0_4.index t (0 : Fin 2) * 65 + 1 * (y 0).val = (y 0).val; omega
  | ⟨1, _⟩ => show win0_4.index t (1 : Fin 2) * 4096 + 1 * (y 1).val = (y 1).val; omega

theorem iblk5_apply (c : Dev nD) (t : Fin cfg0.N) (y : S4096x128.Idx) : iblk m c 5 t y = V m c main_v17 y := by
  obtain ⟨_, _, _, _, e10, e11, e20, e21, e30, e31, e40, e41, e50, e51, e60, e61⟩ := idx_facts t
  show V m c main_v17 (((cfg0.win 5).blk t).view.emb y) = _
  refine congrArg (V m c main_v17) (funext fun a => Fin.ext ?_)
  match a with
  | ⟨0, _⟩ => show win0_5.index t (0 : Fin 2) * 4096 + 1 * (y 0).val = (y 0).val; omega
  | ⟨1, _⟩ => show win0_5.index t (1 : Fin 2) * 128 + 1 * (y 1).val = (y 1).val; omega

theorem iblk6_apply (c : Dev nD) (t : Fin cfg0.N) (y : S1x128.Idx) : iblk m c 6 t y = V m c main_v18 y := by
  obtain ⟨_, _, _, _, e10, e11, e20, e21, e30, e31, e40, e41, e50, e51, e60, e61⟩ := idx_facts t
  show V m c main_v18 (((cfg0.win 6).blk t).view.emb y) = _
  refine congrArg (V m c main_v18) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Stream s's first 1024 rows of the input block: rows of `state`. -/
theorem xblk_state (c : Dev nD) (t : Fin cfg0.N) (s : Fin 2) (r : Fin 1024) (k : Fin 32) :
    iblk m c 0 t (ix2 (⟨2048 * s.val + r.val, by have := s.isLt; have := r.isLt; omega⟩ : Fin 4096) k.castSucc)
      = (m ((c : Thread nD τ).loc main_arg0)) (ix2 (⟨2048 * t.val + 1024 * s.val + r.val, by have := point_lt t; have := s.isLt; have := r.isLt; omega⟩ : Fin 16384) k) := by
  have ht := point_lt t
  rw [iblk0_apply]
  refine (congrArg (fun i : Fin 32768 => V m c main_v8 (ix2 i k.castSucc)) (Fin.ext ?_)).trans
    ((Cert.KernelHost.xall_state m c ⟨2 * t.val + s.val, by have := s.isLt; omega⟩ r k).trans
      (congrArg (fun i : Fin 16384 => (m ((c : Thread nD τ).loc main_arg0)) (ix2 i k)) (Fin.ext ?_)))
  · show 4096 * t.val + (2048 * s.val + r.val) = 2048 * (2 * t.val + s.val) + r.val; omega
  · show 1024 * (2 * t.val + s.val) + r.val = 2048 * t.val + 1024 * s.val + r.val; omega

/-- Stream s's last 1024 rows of the input block: the same rows of `next_state`. -/
theorem xblk_next (c : Dev nD) (t : Fin cfg0.N) (s : Fin 2) (r : Fin 1024) (k : Fin 32) :
    iblk m c 0 t (ix2 (⟨2048 * s.val + 1024 + r.val, by have := s.isLt; have := r.isLt; omega⟩ : Fin 4096) k.castSucc)
      = (m ((c : Thread nD τ).loc main_arg1)) (ix2 (⟨2048 * t.val + 1024 * s.val + r.val, by have := point_lt t; have := s.isLt; have := r.isLt; omega⟩ : Fin 16384) k) := by
  have ht := point_lt t
  rw [iblk0_apply]
  refine (congrArg (fun i : Fin 32768 => V m c main_v8 (ix2 i k.castSucc)) (Fin.ext ?_)).trans
    ((Cert.KernelHost.xall_next m c ⟨2 * t.val + s.val, by have := s.isLt; omega⟩ r k).trans
      (congrArg (fun i : Fin 16384 => (m ((c : Thread nD τ).loc main_arg1)) (ix2 i k)) (Fin.ext ?_)))
  · show 4096 * t.val + (2048 * s.val + 1024 + r.val) = 2048 * (2 * t.val + s.val) + 1024 + r.val; omega
  · show 1024 * (2 * t.val + s.val) + r.val = 2048 * t.val + 1024 * s.val + r.val; omega

/-- The input block's last column is the constant one. -/
theorem xblk_one (c : Dev nD) (t : Fin cfg0.N) (q : Fin 4096) : iblk m c 0 t (ix2 q (Fin.last 32)) = (1 : EReal) := by
  rw [iblk0_apply]; exact Cert.KernelHost.xall_one m c _

/-! ## What a point writes back -/

/-- Rows 1024 s … 1024 s + 1023 of the output block at point t: the network's output for rows
    2048 t + 1024 s + r of the two inputs. -/
theorem stream_at (c : Dev nD) (t : Fin cfg0.N) (s : Fin 2) (r : Fin 1024) (n : Fin 128)
    (X : Vec Ideal S2048x33 .bf16) (hR : ∀ (a : Fin 2048) (b : Fin 33), X (ix2 a b)
      = iblk m c 0 t (ix2 (⟨2048 * s.val + a.val, by have := s.isLt; have := a.isLt; omega⟩ : Fin 4096) b)) :
    Cert.KernelTerm.stream X (View.ld (iblk m c 3 t) r0_1)
        (Cert.KernelTerm.loadsA (iblk m c 1 t) (iblk m c 2 t)) (View.ld (iblk m c 6 t) r0_34)
        (Cert.KernelTerm.loadsB (iblk m c 4 t) (iblk m c 5 t)) (ix2 r n)
      = Gm m c (ix2 (⟨2048 * t.val + 1024 * s.val + r.val, by have := point_lt t; have := s.isLt; have := r.isLt; omega⟩ : Fin 16384) n) := by
  refine Cert.KernelValue.stream_apply X (View.ld (iblk m c 3 t) r0_1) (iblk m c 1 t) (iblk m c 2 t)
    (View.ld (iblk m c 6 t) r0_34) (iblk m c 4 t) (iblk m c 5 t) r n _ _ (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (fun k => ?_) ?_ (fun k => ?_) ?_ (fun k j => ?_) (fun j => ?_) (fun i => ?_) (fun n' => ?_)
    (fun k j => ?_) (fun j => ?_) (fun i => ?_) (fun n' => ?_)
  · exact (hR _ _).trans (xblk_state m c t s r k)
  · exact (hR _ _).trans (xblk_one m c t _)
  · refine (hR _ _).trans ?_
    exact (congrArg (fun i : Fin 4096 => iblk m c 0 t (ix2 i k.castSucc)) (Fin.ext (by show 2048 * s.val + (1024 + r.val) = 2048 * s.val + 1024 + r.val; omega))).trans (xblk_next m c t s r k)
  · exact (hR _ _).trans (xblk_one m c t _)
  · exact (iblk1_apply m c t _).trans (Cert.KernelHost.w1aug_w m c k j)
  · exact (iblk1_apply m c t _).trans (Cert.KernelHost.w1aug_b m c j)
  · exact (iblk2_apply m c t i).trans (Cert.KernelHost.w2_eq m c i)
  · refine (?_ : View.ld (iblk m c 3 t) r0_1 (ix2 (0 : Fin 1) n') = iblk m c 3 t (ix2 (0 : Fin 1) n')).trans
      ((iblk3_apply m c t _).trans (Cert.KernelHost.b2_eq m c n'))
    exact congrArg (iblk m c 3 t) (Shape.idx_ext₂ (by show 0 + 1 * 0 = 0; rfl) (by show 0 + 1 * n'.val = n'.val; omega))
  · exact (iblk4_apply m c t _).trans (Cert.KernelHost.w3aug_w m c k j)
  · exact (iblk4_apply m c t _).trans (Cert.KernelHost.w3aug_b m c j)
  · exact (iblk5_apply m c t i).trans (Cert.KernelHost.w4_eq m c i)
  · refine (?_ : View.ld (iblk m c 6 t) r0_34 (ix2 (0 : Fin 1) n') = iblk m c 6 t (ix2 (0 : Fin 1) n')).trans
      ((iblk6_apply m c t _).trans (Cert.KernelHost.b4_eq m c n'))
    exact congrArg (iblk m c 6 t) (Shape.idx_ext₂ (by show 0 + 1 * 0 = 0; rfl) (by show 0 + 1 * n'.val = n'.val; omega))

/-- The two row halves of the staged input block, as the body loads them. -/
theorem ld_half0 (X : Vec Ideal S4096x33 .bf16) (a : Fin 2048) (b : Fin 33) :
    View.ld X r0_0 (ix2 a b) = X (ix2 (⟨2048 * (0 : Fin 2).val + a.val, by have := a.isLt; simp; omega⟩ : Fin 4096) b) :=
  congrArg X (Shape.idx_ext₂ (show 0 + 1 * a.val = 2048 * 0 + a.val by omega) (show 0 + 1 * b.val = b.val by omega))

theorem ld_half1 (X : Vec Ideal S4096x33 .bf16) (a : Fin 2048) (b : Fin 33) :
    View.ld X r0_68 (ix2 a b) = X (ix2 (⟨2048 * (1 : Fin 2).val + a.val, by have := a.isLt; simp; omega⟩ : Fin 4096) b) :=
  congrArg X (Shape.idx_ext₂ (show 2048 + 1 * a.val = 2048 * 1 + a.val by omega) (show 0 + 1 * b.val = b.val by omega))

/-- Stream zero's result at point t. -/
def pay0 (c : Dev nD) (t : Fin cfg0.N) : FVec Ideal S1024x128 .f32 :=
  Cert.KernelTerm.stream (View.ld (iblk m c 0 t) r0_0) (View.ld (iblk m c 3 t) r0_1)
    (Cert.KernelTerm.loadsA (iblk m c 1 t) (iblk m c 2 t)) (View.ld (iblk m c 6 t) r0_34)
    (Cert.KernelTerm.loadsB (iblk m c 4 t) (iblk m c 5 t))

/-- Stream one's result at point t. -/
def pay1 (c : Dev nD) (t : Fin cfg0.N) : FVec Ideal S1024x128 .f32 :=
  Cert.KernelTerm.stream (View.ld (iblk m c 0 t) r0_68) (View.ld (iblk m c 3 t) r0_1)
    (Cert.KernelTerm.loadsA (iblk m c 1 t) (iblk m c 2 t)) (View.ld (iblk m c 6 t) r0_34)
    (Cert.KernelTerm.loadsB (iblk m c 4 t) (iblk m c 5 t))

/-- The output block at point t: stream one's result under rows 1024–2047, stream zero's under rows 0–1023. -/
theorem out_eq (c : Dev nD) (t : Fin cfg0.N) :
    out0_7 (iblk m c 0 t) (iblk m c 1 t) (iblk m c 2 t) (iblk m c 3 t) (iblk m c 4 t) (iblk m c 5 t) (iblk m c 6 t)
      = View.canon (Val := Elt Ideal) (s := S2048x128) (e := .f32) [⟨r0_69, pay1 m c t⟩, ⟨r0_67, pay0 m c t⟩] :=
  Cert.KernelTerm.out0_7_eq (iblk m c 0 t) (iblk m c 1 t) (iblk m c 2 t) (iblk m c 3 t) (iblk m c 4 t) (iblk m c 5 t) (iblk m c 6 t)

theorem pay0_apply (c : Dev nD) (t : Fin cfg0.N) (r : Fin 1024) (n : Fin 128) :
    pay0 m c t (ix2 r n)
      = Gm m c (ix2 (⟨2048 * t.val + r.val, by have := point_lt t; have := r.isLt; omega⟩ : Fin 16384) n) :=
  (stream_at m c t 0 r n (View.ld (iblk m c 0 t) r0_0) (ld_half0 (iblk m c 0 t))).trans
    (congrArg (fun i : Fin 16384 => Gm m c (ix2 i n)) (Fin.ext (show 2048 * t.val + 1024 * 0 + r.val = 2048 * t.val + r.val by omega)))

theorem pay1_apply (c : Dev nD) (t : Fin cfg0.N) (r : Fin 1024) (n : Fin 128) :
    pay1 m c t (ix2 r n)
      = Gm m c (ix2 (⟨2048 * t.val + 1024 + r.val, by have := point_lt t; have := r.isLt; omega⟩ : Fin 16384) n) :=
  (stream_at m c t 1 r n (View.ld (iblk m c 0 t) r0_68) (ld_half1 (iblk m c 0 t))).trans
    (congrArg (fun i : Fin 16384 => Gm m c (ix2 i n)) (Fin.ext (show 2048 * t.val + 1024 * 1 + r.val = 2048 * t.val + 1024 + r.val by omega)))

set_option maxHeartbeats 1000000 in
/-- WHAT POINT t WRITES BACK is its block of the network's output: each stream's rows are the output's rows under
    the stream's rectangle, and the two rectangles cover the block. -/
theorem flushed_eq (c : Dev nD) (t : Fin cfg0.N) :
    (dats m 0 c).flushed 7 t = ((cfg0.win 7).blk t).view.read (Elt Ideal) (Gm m c) := by
  rw [Cert.KernelIdeal.Value.flushed7, out_eq]
  obtain ⟨e70, e71, _⟩ := idx_facts t
  have ht := point_lt t
  funext y
  show View.canon (Val := Elt Ideal) (s := S2048x128) (e := .f32) [⟨r0_69, pay1 m c t⟩, ⟨r0_67, pay0 m c t⟩] y
    = Gm m c (((cfg0.win 7).blk t).view.emb y)
  refine View.canon_apply_of_pieces (Val := Elt Ideal) (S := S2048x128) (e := .f32)
    (fun y => Gm m c (((cfg0.win 7).blk t).view.emb y)) [⟨r0_69, pay1 m c t⟩, ⟨r0_67, pay0 m c t⟩] ?_ y
    (cover0_7 (F := Ideal) (pay1 m c t) (pay0 m c t) y)
  intro p hp x
  rcases List.mem_cons.mp hp with rfl | hp
  · obtain ⟨r, n, rfl⟩ : ∃ (r : Fin 1024) (n : Fin 128), x = ix2 r n := ⟨x 0, x 1, eq_ix2 x⟩
    refine (pay1_apply m c t r n).trans (congrArg (Gm m c) ?_)
    funext a; apply Fin.ext
    match a with
    | ⟨0, _⟩ => show 2048 * t.val + 1024 + r.val = win0_7.index t (0 : Fin 2) * 2048 + 1 * (1024 + 1 * r.val); omega
    | ⟨1, _⟩ => show n.val = win0_7.index t (1 : Fin 2) * 128 + 1 * (0 + 1 * n.val); omega
  · rcases List.mem_cons.mp hp with rfl | hp
    · obtain ⟨r, n, rfl⟩ : ∃ (r : Fin 1024) (n : Fin 128), x = ix2 r n := ⟨x 0, x 1, eq_ix2 x⟩
      refine (pay0_apply m c t r n).trans (congrArg (Gm m c) ?_)
      funext a; apply Fin.ext
      match a with
      | ⟨0, _⟩ => show 2048 * t.val + r.val = win0_7.index t (0 : Fin 2) * 2048 + 1 * (0 + 1 * r.val); omega
      | ⟨1, _⟩ => show n.val = win0_7.index t (1 : Fin 2) * 128 + 1 * (0 + 1 * n.val); omega
    · exact absurd hp List.not_mem_nil

/-- An index of the result is in point t's block iff its row is among the block's 2048. -/
theorem mem_blk (t : Fin cfg0.N) (i : S16384x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v19).slice (win0_7.rect t)).set ↔ _
  rw [View.set_slice_whole, Rect.mem_set_unit]
  exact Iff.rfl

/-- Every point's block index is its number; so row R lies in the block of point R / 2048. -/
theorem cover (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  obtain ⟨t, ht⟩ : ∃ t : Fin cfg0.N, t.val = (i 0).val / 2048 :=
    (by decide +kernel : ∀ q : Fin 8, ∃ t : Fin grid0.N, t.val = q.val) ⟨(i 0).val / 2048, by omega⟩
  obtain ⟨e70, e71, _⟩ := idx_facts t
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- THE RESULT ARRAY after the run is the network's output. -/
theorem final (c : Dev nD) : (dats m 0 c).arrAt 7 cfg0.N = Gm m c :=
  (dats m 0 c).arrAt_eq_of_cover 7 (Gm m c) (fun t _ => flushed_eq m c t) cover

/-- The kernel program's run: the result at the network's output of the argument arrays, the arguments unchanged. -/
theorem run : θ_run defs (onTc (τ := τ) (main (F := Ideal))) ⟨m, fun _ => 0, ρ⟩ fun r => ∀ c : Dev nD,
      r.2.mem ((c : Thread nD τ).loc main_v19) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelFinal

end
-- ==== Proof.RefValue.lean ====
/-
  The reference program, read entry by entry, is the network `Cert.Spec.G`.

  Each dense layer of the program is a contraction over the input features followed by the bias, broadcast over the
  rows, and (except for the last layer) a maximum with zero; read at row r and column m it is the Spec's `hid` / `mlp`
  on row r of its input. The two branches' outputs are joined column-wise: column k < 32 of the joined matrix is
  column k of the first branch and column k ≥ 32 is column k − 32 of the second, which is the Spec's `pair`.
-/
import proofs.«146832_g11802570129985_cont_fleet_79_18_alg».proof.Proof.Gen.ReferenceIdeal.Read
import proofs.«146832_g11802570129985_cont_fleet_79_18_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.RefValue

open Idealize.ShloMosaic Idealize.ShloMosaic.ValueIdx Cert.ReferenceIdeal Cert.Spec

/-- Two rank-2 indices with the same two coordinates are equal. -/
local macro "coords2" : tactic => `(tactic| (funext a; match a with | ⟨0, _⟩ => rfl | ⟨1, _⟩ => rfl))
/-- Two rank-1 indices with the same coordinate are equal. -/
local macro "coords1" : tactic => `(tactic| (funext a; match a with | ⟨0, _⟩ => rfl))

/-- The zero the program's rectifiers compare with is the extended real 0. -/
theorem zero_word : FloatOps.ofBits (F := Ideal) .f32 0x00000000#32 = (0 : EReal) := by
  rw [Ideal.ofBits_def, Ideal.ofBits_zero_f32]

variable (x0 x1 : (⟨S16384x32, .f32⟩ : BufTy).Contents (Elt Ideal)) (x2 : (⟨S32x4096, .f32⟩ : BufTy).Contents (Elt Ideal)) (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal)) (x8 : (⟨S4096x128, .f32⟩ : BufTy).Contents (Elt Ideal)) (x9 : (⟨S128, .f32⟩ : BufTy).Contents (Elt Ideal))

/-- First layer on `state`: entry (r, m) is hidden unit m on row r. -/
theorem hid_state (r : Fin 16384) (m : Fin 4096) :
    Read.val_main_v4 (F := Ideal) x0 x2 x3 (ix2 r m) = hid (row x0 r) x2 x3 m := by
  have el : ∀ k : Fin 32, Read.lidx_main_v0 (ix2 r m) k = ix2 r k := fun k => by coords2
  have er : ∀ k : Fin 32, Read.ridx_main_v0 (ix2 r m) k = ix2 k m := fun k => by coords2
  have eb : Read.idx_main_v1 (Read.idx_main_v2 (ix2 r m)) = ix1 m := by coords1
  rw [Read.val_main_v4_apply, Read.val_main_v3_apply, Read.val_main_v0_apply, Read.val_main_v2_apply,
    Read.val_main_v1_apply, Read.val_main_call0_v0_apply, Read.val_main_call0_cst_apply, eb, zero_word,
    Ideal.maximumf_def, Ideal.addf_def]
  unfold hid relu row
  simp only [el, er]

/-- First layer on `next_state`: entry (r, m) is hidden unit m on row r. -/
theorem hid_next (r : Fin 16384) (m : Fin 4096) :
    Read.val_main_v14 (F := Ideal) x1 x2 x3 (ix2 r m) = hid (row x1 r) x2 x3 m := by
  have el : ∀ k : Fin 32, Read.lidx_main_v10 (ix2 r m) k = ix2 r k := fun k => by coords2
  have er : ∀ k : Fin 32, Read.ridx_main_v10 (ix2 r m) k = ix2 k m := fun k => by coords2
  have eb : Read.idx_main_v11 (Read.idx_main_v12 (ix2 r m)) = ix1 m := by coords1
  rw [Read.val_main_v14_apply, Read.val_main_v13_apply, Read.val_main_v10_apply, Read.val_main_v12_apply,
    Read.val_main_v11_apply, Read.val_main_call2_v0_apply, Read.val_main_call2_cst_apply, eb, zero_word,
    Ideal.maximumf_def, Ideal.addf_def]
  unfold hid relu row
  simp only [el, er]

/-- The first perceptron with its rectifier on `state`: entry (r, n) is output n of the branch on row r. -/
theorem branch_state (r : Fin 16384) (n : Fin 32) :
    Read.val_main_v9 (F := Ideal) x0 x2 x3 x4 x5 (ix2 r n) = branch (row x0 r) x2 x3 x4 x5 n := by
  have el : ∀ k : Fin 4096, Read.lidx_main_v5 (ix2 r n) k = ix2 r k := fun k => by coords2
  have er : ∀ k : Fin 4096, Read.ridx_main_v5 (ix2 r n) k = ix2 k n := fun k => by coords2
  have eb : Read.idx_main_v6 (Read.idx_main_v7 (ix2 r n)) = ix1 n := by coords1
  rw [Read.val_main_v9_apply, Read.val_main_v8_apply, Read.val_main_v5_apply, Read.val_main_v7_apply,
    Read.val_main_v6_apply, Read.val_main_call1_v0_apply, Read.val_main_call1_cst_apply, eb, zero_word,
    Ideal.maximumf_def, Ideal.addf_def]
  unfold branch relu mlp
  simp only [el, er, hid_state]

/-- The first perceptron with its rectifier on `next_state`. -/
theorem branch_next (r : Fin 16384) (n : Fin 32) :
    Read.val_main_v19 (F := Ideal) x1 x2 x3 x4 x5 (ix2 r n) = branch (row x1 r) x2 x3 x4 x5 n := by
  have el : ∀ k : Fin 4096, Read.lidx_main_v15 (ix2 r n) k = ix2 r k := fun k => by coords2
  have er : ∀ k : Fin 4096, Read.ridx_main_v15 (ix2 r n) k = ix2 k n := fun k => by coords2
  have eb : Read.idx_main_v16 (Read.idx_main_v17 (ix2 r n)) = ix1 n := by coords1
  rw [Read.val_main_v19_apply, Read.val_main_v18_apply, Read.val_main_v15_apply, Read.val_main_v17_apply,
    Read.val_main_v16_apply, Read.val_main_call3_v0_apply, Read.val_main_call3_cst_apply, eb, zero_word,
    Ideal.maximumf_def, Ideal.addf_def]
  unfold branch relu mlp
  simp only [el, er, hid_next]

/-- The joined matrix: row r is the two branches' outputs on row r side by side. -/
theorem joined (r : Fin 16384) (k : Fin 64) :
    Read.val_main_v20 (F := Ideal) x0 x1 x2 x3 x4 x5 (ix2 r k)
      = pair (branch (row x0 r) x2 x3 x4 x5) (branch (row x1 r) x2 x3 x4 x5) k := by
  unfold Read.val_main_v20 pair
  by_cases h : k.val < 32
  · -- a column below 32 is read from the first piece at the same column
    rw [dif_pos h, concatenate_pair_apply_left (s₁ := S16384x32) (s₂ := S16384x32) (1 : Fin S16384x64.rank) _ _ _ (ix2 r k) rfl
      (ix2 r (⟨k.val, h⟩ : Fin 32))
      (fun b => by match b with | ⟨0, _⟩ => rfl | ⟨1, _⟩ => rfl)]
    exact branch_state x0 x2 x3 x4 x5 r ⟨k.val, h⟩
  · -- a column from 32 on is read from the second piece 32 columns to the left
    have hk : k.val - 32 < 32 := by have := k.isLt; omega
    rw [dif_neg h, concatenate_pair_apply_right (s₁ := S16384x32) (s₂ := S16384x32) (1 : Fin S16384x64.rank) _ _ _ (ix2 r k) rfl rfl
      (ix2 r (⟨k.val - 32, hk⟩ : Fin 32))
      (fun b => by match b with | ⟨0, _⟩ => (intro _; rfl) | ⟨1, _⟩ => (intro hb; exact absurd rfl hb))
      (by show k.val - 32 + 32 = k.val; omega)]
    exact branch_next x1 x2 x3 x4 x5 r ⟨k.val - 32, hk⟩

/-- First layer of the second perceptron: entry (r, m) is hidden unit m on the joined row r. -/
theorem hid_head (r : Fin 16384) (m : Fin 4096) :
    Read.val_main_v25 (F := Ideal) x0 x1 x2 x3 x4 x5 x6 x7 (ix2 r m)
      = hid (pair (branch (row x0 r) x2 x3 x4 x5) (branch (row x1 r) x2 x3 x4 x5)) x6 x7 m := by
  have el : ∀ k : Fin 64, Read.lidx_main_v21 (ix2 r m) k = ix2 r k := fun k => by coords2
  have er : ∀ k : Fin 64, Read.ridx_main_v21 (ix2 r m) k = ix2 k m := fun k => by coords2
  have eb : Read.idx_main_v22 (Read.idx_main_v23 (ix2 r m)) = ix1 m := by coords1
  rw [Read.val_main_v25_apply, Read.val_main_v24_apply, Read.val_main_v21_apply, Read.val_main_v23_apply,
    Read.val_main_v22_apply, Read.val_main_call4_v0_apply, Read.val_main_call4_cst_apply, eb, zero_word,
    Ideal.maximumf_def, Ideal.addf_def]
  unfold hid relu
  simp only [el, er, joined]

/-- The program's result at (r, n) is output n of the second perceptron on the joined row r. -/
theorem out_at (r : Fin 16384) (n : Fin 128) :
    Read.val_main_v29 (F := Ideal) x0 x1 x2 x3 x4 x5 x6 x7 x8 x9 (ix2 r n)
      = mlp (pair (branch (row x0 r) x2 x3 x4 x5) (branch (row x1 r) x2 x3 x4 x5)) x6 x7 x8 x9 n := by
  have el : ∀ k : Fin 4096, Read.lidx_main_v26 (ix2 r n) k = ix2 r k := fun k => by coords2
  have er : ∀ k : Fin 4096, Read.ridx_main_v26 (ix2 r n) k = ix2 k n := fun k => by coords2
  have eb : Read.idx_main_v27 (Read.idx_main_v28 (ix2 r n)) = ix1 n := by coords1
  rw [Read.val_main_v29_apply, Read.val_main_v26_apply, Read.val_main_v28_apply, Read.val_main_v27_apply, eb,
    Ideal.addf_def]
  unfold mlp
  simp only [el, er, hid_head]

/-- The reference program computes the network. -/
theorem ref_eq_G :
      Cert.ReferenceIdeal.Read.val_main_v29 (F := Ideal) x0 x1 x2 x3 x4 x5 x6 x7 x8 x9 = Cert.Spec.G x0 x1 x2 x3 x4 x5 x6 x7 x8 x9 := by
  funext i
  obtain ⟨r, n, rfl⟩ : ∃ r n, i = ix2 r n := ⟨i 0, i 1, eq_ix2 i⟩
  rw [out_at]
  rfl

end Cert.RefValue

end
-- ==== Proof.lean ====
/-
  The kernel and the reference compute one function.

  Both programs evaluate a Siamese network on 16384 rows: a perceptron 32 → 4096 → 32 with rectifiers on `state` and on
  `next_state`, the two outputs of a row side by side through a perceptron 64 → 4096 → 128 (`Cert.Spec.G`). The reference
  does it with four whole matrix products. The kernel stacks the two inputs with a column of ones, folds the first
  and third bias into the weight matrices as an extra row, takes the 4096 hidden units 256 at a time and accumulates the
  second and fourth product run by run from the bias, 2048 rows per grid point in two streams. Over the extended reals
  the two agree entry by entry: a format change is the identity, the sum over the hidden units may be taken in runs,
  and a one times the bias row adds the bias — associativity and commutativity of the sum only, so the inputs'
  finiteness is not used.

  `Cert.RefValue.ref_eq_G`: the reference's result is `G` of the arguments. `Cert.KernelFinal.run`: the kernel program
  runs and leaves `G` of the arguments in its result array. The three frames are the programs' runs with the result
  dropped; the kernel's idealization rewrote nothing, so `preserves` is trivial.
-/
import proofs.«146832_g11802570129985_cont_fleet_79_18_alg».proof.Defs
import proofs.«146832_g11802570129985_cont_fleet_79_18_alg».proof.Proof.Gen.Kernel
import proofs.«146832_g11802570129985_cont_fleet_79_18_alg».proof.Proof.Gen.Kernel.Skeleton
import proofs.«146832_g11802570129985_cont_fleet_79_18_alg».proof.Proof.Gen.Kernel.Launch
import proofs.«146832_g11802570129985_cont_fleet_79_18_alg».proof.Proof.Gen.Kernel.Points
import proofs.«146832_g11802570129985_cont_fleet_79_18_alg».proof.Proof.Gen.Kernel.Frame
import proofs.«146832_g11802570129985_cont_fleet_79_18_alg».proof.Proof.Gen.KernelIdeal
import proofs.«146832_g11802570129985_cont_fleet_79_18_alg».proof.Proof.Gen.KernelIdeal.Skeleton
import proofs.«146832_g11802570129985_cont_fleet_79_18_alg».proof.Proof.Gen.KernelIdeal.Launch
import proofs.«146832_g11802570129985_cont_fleet_79_18_alg».proof.Proof.Gen.KernelIdeal.Points
import proofs.«146832_g11802570129985_cont_fleet_79_18_alg».proof.Proof.Gen.KernelIdeal.Frame
import proofs.«146832_g11802570129985_cont_fleet_79_18_alg».proof.Proof.Gen.ReferenceIdeal
import proofs.«146832_g11802570129985_cont_fleet_79_18_alg».proof.Proof.Gen.Pre_finite_inputs
import proofs.«146832_g11802570129985_cont_fleet_79_18_alg».proof.Proof.Gen.KernelIdeal.Value
import proofs.«146832_g11802570129985_cont_fleet_79_18_alg».proof.Proof.Gen.ReferenceIdeal.Run
import proofs.«146832_g11802570129985_cont_fleet_79_18_alg».proof.Proof.Gen.ReferenceIdeal.Read
import proofs.«146832_g11802570129985_cont_fleet_79_18_alg».proof.Proof.KernelFinal
import proofs.«146832_g11802570129985_cont_fleet_79_18_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network's output of those arguments. -/
theorem algebraic : Cert.algebraic_KernelIdeal_ReferenceIdeal := by
  intro m ρ m' ρ' _ hagree
  refine ⟨fun c => Cert.KernelFinal.Gm m c, Cert.KernelFinal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  refine (Cert.ReferenceIdeal.Read.val_main_v29_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans
    ((Cert.RefValue.ref_eq_G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_)
  unfold Cert.KernelFinal.Gm
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
